-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S8x4096 : Shape := ⟨2, ![8, 4096]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel
  bcast_S_S8x4096 : S_.BroadcastsInDim S8x4096 (![] : Fin 0 → Fin S8x4096.rank)
  reducesTo_S8x4096_S_d0_1 : S8x4096.ReducesTo [0, 1] S_

variable [Facts]

def fn_part1 {F : FTy → Type} [FloatOps F] (main_v13 : IVec S_ 1) (main_v16 : IVec S8x4096 1) : IVec S_ 1 :=
  let main_c_5 : IVec S_ 1 := constantI S_ 1 1#1
  let main_v17 : IVec S_ 1 := (fun x v => Host.reduce IntOp.andi x v reducesTo_S8x4096_S_d0_1 h_S_) main_v16 main_c_5
  let main_v18 : IVec S_ 1 := andi main_v13 main_v17
  main_v18

def fn {F : FTy → Type} [FloatOps F] (main_arg0 : FVec F S8x4096x3 .f32) (main_arg1 : FVec F S8x4096x3 .f32) (main_arg2 : FVec F S8x4096 .f32) (main_arg3 : FVec F S8x4096 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  let main_v9 : FVec F S8x4096 .f32 := Host.absf main_arg2
  let main_cst_2 : FVec F S_ .f32 := constant S_ .f32 0x7F800000#32
  let main_v10 : FVec F S8x4096 .f32 := broadcastInDim S8x4096 ![] bcast_S_S8x4096 main_cst_2
  let main_v11 : IVec S8x4096 1 := cmpf .olt main_v9 main_v10
  let main_c_3 : IVec S_ 1 := constantI S_ 1 1#1
  let main_v12 : IVec S_ 1 := (fun x v => Host.reduce IntOp.andi x v reducesTo_S8x4096_S_d0_1 h_S_) main_v11 main_c_3
  let main_v13 : IVec S_ 1 := andi main_v8 main_v12
  let main_v14 : FVec F S8x4096 .f32 := Host.absf main_arg3
  let main_cst_4 : FVec F S_ .f32 := constant S_ .f32 0x7F800000#32
  let main_v15 : FVec F S8x4096 .f32 := broadcastInDim S8x4096 ![] bcast_S_S8x4096 main_cst_4
  let main_v16 : IVec S8x4096 1 := cmpf .olt main_v14 main_v15
  fn_part1 (F := F) main_v13 main_v16
-- ==== Kernel.lean ====
abbrev S8x4096x3 : Shape := ⟨3, ![8, 4096, 3]⟩
abbrev S8x4096 : Shape := ⟨2, ![8, 4096]⟩
abbrev S_ : Shape := ⟨0, ![]⟩
abbrev S8x4096x1 : Shape := ⟨3, ![8, 4096, 1]⟩
abbrev S8x4096x4 : Shape := ⟨3, ![8, 4096, 4]⟩
abbrev S8x3x4096 : Shape := ⟨3, ![8, 3, 4096]⟩
abbrev S8x1x4096 : Shape := ⟨3, ![8, 1, 4096]⟩
abbrev S8x4x4096 : Shape := ⟨3, ![8, 4, 4096]⟩
abbrev S1x4096x4 : Shape := ⟨3, ![1, 4096, 4]⟩
abbrev S1x4x512 : Shape := ⟨3, ![1, 4, 512]⟩
abbrev S1x512x4 : Shape := ⟨3, ![1, 512, 4]⟩
abbrev S1x4x4096 : Shape := ⟨3, ![1, 4, 4096]⟩
abbrev S1x1x4096 : Shape := ⟨3, ![1, 1, 4096]⟩
abbrev S1x1x512 : Shape := ⟨3, ![1, 1, 512]⟩
abbrev S4096x4 : Shape := ⟨2, ![4096, 4]⟩
abbrev S4x512 : Shape := ⟨2, ![4, 512]⟩
abbrev S512x4 : Shape := ⟨2, ![512, 4]⟩
abbrev S4x4096 : Shape := ⟨2, ![4, 4096]⟩
abbrev S4096x3 : Shape := ⟨2, ![4096, 3]⟩
abbrev S3x512 : Shape := ⟨2, ![3, 512]⟩
abbrev S4096x512 : Shape := ⟨2, ![4096, 512]⟩
abbrev S4096x1 : Shape := ⟨2, ![4096, 1]⟩
abbrev S512 : Shape := ⟨1, ![512]⟩
abbrev S1x512 : Shape := ⟨2, ![1, 512]⟩
abbrev S512x3 : Shape := ⟨2, ![512, 3]⟩
abbrev S3x4096 : Shape := ⟨2, ![3, 4096]⟩
abbrev S512x4096 : Shape := ⟨2, ![512, 4096]⟩
abbrev S512x1 : Shape := ⟨2, ![512, 1]⟩
abbrev S4096 : Shape := ⟨1, ![4096]⟩
abbrev S1x4096 : Shape := ⟨2, ![1, 4096]⟩

abbrev nBuf : Space → Nat
  | .hbm => 45
  | .vmem => 12
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096, .f32⟩
  | .hbm, ⟨3, _⟩ => ⟨S8x4096, .f32⟩
  | .hbm, ⟨4, _⟩ => ⟨S8x4096x3, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S8x4096x3, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x3, .f32⟩
  | .hbm, ⟨14, _⟩ => ⟨S8x4096x3, .f32⟩
  | .hbm, ⟨15, _⟩ => ⟨S8x4096x4, .f32⟩
  | .hbm, ⟨16, _⟩ => ⟨S_, .f32⟩
  | .hbm, ⟨17, _⟩ => ⟨S8x4096x3, .f32⟩
  | .hbm, ⟨18, _⟩ => ⟨S8x4096x3, .f32⟩
  | .hbm, ⟨19, _⟩ => ⟨S8x4096x4, .f32⟩
  | .hbm, ⟨20, _⟩ => ⟨S8x3x4096, .f32⟩
  | .hbm, ⟨21, _⟩ => ⟨S8x1x4096, .f32⟩
  | .hbm, ⟨22, _⟩ => ⟨S8x4x4096, .f32⟩
  | .hbm, ⟨23, _⟩ => ⟨S8x3x4096, .f32⟩
  | .hbm, ⟨24, _⟩ => ⟨S8x1x4096, .f32⟩
  | .hbm, ⟨25, _⟩ => ⟨S8x4x4096, .f32⟩
  | .hbm, ⟨26, _⟩ => ⟨S8x1x4096, .f32⟩
  | .hbm, ⟨27, _⟩ => ⟨S8x1x4096, .f32⟩
  | .hbm, ⟨28, _⟩ => ⟨S8x4096, .f32⟩
  | .hbm, ⟨29, _⟩ => ⟨S8x4096, .f32⟩
  | .hbm, ⟨30, _⟩ => ⟨S8x4096, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S8x4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .local _ .vmem, ⟨0, _⟩ => ⟨S1x4096x4, .f32⟩
  | .local _ .vmem, ⟨1, _⟩ => ⟨S1x4096x4, .f32⟩
  | .local _ .vmem, ⟨2, _⟩ => ⟨S1x4x512, .f32⟩
  | .local _ .vmem, ⟨3, _⟩ => ⟨S1x4x512, .f32⟩
  | .local _ .vmem, ⟨4, _⟩ => ⟨S1x512x4, .f32⟩
  | .local _ .vmem, ⟨5, _⟩ => ⟨S1x512x4, .f32⟩
  | .local _ .vmem, ⟨6, _⟩ => ⟨S1x4x4096, .f32⟩
  | .local _ .vmem, ⟨7, _⟩ => ⟨S1x4x4096, .f32⟩
  | .local _ .vmem, ⟨8, _⟩ => ⟨S1x1x4096, .f32⟩
  | .local _ .vmem, ⟨9, _⟩ => ⟨S1x1x4096, .f32⟩
  | .local _ .vmem, ⟨10, _⟩ => ⟨S1x1x512, .f32⟩
  | .local _ .vmem, ⟨11, _⟩ => ⟨S1x1x512, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_cst_2 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_call0_v17 : Ref sig .tc := ⟨.hbm, 25, rfl⟩
abbrev main_call0_v18_0 : Ref sig .tc := ⟨.hbm, 26, rfl⟩
abbrev main_call0_v18_1 : Ref sig .tc := ⟨.hbm, 27, rfl⟩
abbrev main_call0_v19 : Ref sig .tc := ⟨.hbm, 28, rfl⟩
abbrev main_call0_v20 : Ref sig .tc := ⟨.hbm, 29, rfl⟩
abbrev main_call0_v21 : Ref sig .tc := ⟨.hbm, 30, rfl⟩
abbrev main_call0_cst_3 : Ref sig .tc := ⟨.hbm, 31, rfl⟩
abbrev main_call0_v22 : Ref sig .tc := ⟨.hbm, 32, rfl⟩
abbrev main_call0_cst_4 : Ref sig .tc := ⟨.hbm, 33, rfl⟩
abbrev main_call0_v23 : Ref sig .tc := ⟨.hbm, 34, rfl⟩
abbrev main_call0_v24 : Ref sig .tc := ⟨.hbm, 35, rfl⟩
abbrev main_call0_v25 : Ref sig .tc := ⟨.hbm, 36, rfl⟩
abbrev main_call0_cst_5 : Ref sig .tc := ⟨.hbm, 37, rfl⟩
abbrev main_call0_v26 : Ref sig .tc := ⟨.hbm, 38, rfl⟩
abbrev main_call0_cst_6 : Ref sig .tc := ⟨.hbm, 39, rfl⟩
abbrev main_call0_v27 : Ref sig .tc := ⟨.hbm, 40, rfl⟩
abbrev main_call0_v28 : Ref sig .tc := ⟨.hbm, 41, rfl⟩
abbrev main_call0_v29 : Ref sig .tc := ⟨.hbm, 42, rfl⟩
abbrev main_call0_cst_7 : Ref sig .tc := ⟨.hbm, 43, rfl⟩
abbrev main_v0 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v28 : BitVec 1 := Scalar.cmpi .eq arg1 c0_i32
  let v29 : BitVec 32 := Scalar.extui v28
  let c0_i32_17 : BitVec 32 := 0#32
  let v30 : BitVec 1 := Scalar.cmpi .ne v29 c0_i32_17
  v30

def k0_cond2 (i : grid0.Coords) : BitVec 1 :=
  let arg1 : BitVec 32 := BitVec.ofNat 32 (i 1).val
  let c0_i32_18 : BitVec 32 := 0#32
  let v31 : BitVec 1 := Scalar.cmpi .sgt arg1 c0_i32_18
  let c7_i32 : BitVec 32 := 7#32
  let v32 : BitVec 1 := Scalar.cmpi .slt arg1 c7_i32
  let v33 : BitVec 1 := Scalar.andi v31 v32
  let v34 : BitVec 32 := Scalar.extui v33
  let c0_i32_19 : BitVec 32 := 0#32
  let v35 : BitVec 1 := Scalar.cmpi .ne v34 c0_i32_19
  v35

def k0_cond3 (i : grid0.Coords) : BitVec 1 :=
  let arg1 : BitVec 32 := BitVec.ofNat 32 (i 1).val
  let c7_i32_20 : BitVec 32 := 7#32
  let v36 : BitVec 1 := Scalar.cmpi .eq arg1 c7_i32_20
  let v37 : BitVec 32 := Scalar.extui v36
  let c0_i32_21 : BitVec 32 := 0#32
  let v38 : BitVec 1 := Scalar.cmpi .ne v37 c0_i32_21
  v38

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S_S8x4096x3 : S_.BroadcastsInDim S8x4096x3 (![] : Fin 0 → Fin S8x4096x3.rank)
  concatenates_S8x4096x3_S8x4096x1_S8x4096x4_d2 : Shape.Concatenates [S8x4096x3, S8x4096x1] S8x4096x4 2
  transposes_S8x4096x3_S8x3x4096_0_2_1 : S8x4096x3.Transposes [0, 2, 1] S8x3x4096
  transposes_S8x4096x1_S8x1x4096_0_2_1 : S8x4096x1.Transposes [0, 2, 1] S8x1x4096
  concatenates_S8x3x4096_S8x1x4096_S8x4x4096_d1 : Shape.Concatenates [S8x3x4096, S8x1x4096] S8x4x4096 1
  shapeCasts_S8x1x4096_S8x4096 : S8x1x4096.ShapeCasts S8x4096
  reducesTo_S8x4096_S_d0_1 : S8x4096.ReducesTo [0, 1] S_
  inb_S1x4096x4_S1x4096x4_0_0_0 : ∀ a, (![0, 0, 0] : Fin 3 → Nat) a + S1x4096x4.size a ≤ S1x4096x4.size a
  h_S1x4096x4 : 0 < S1x4096x4.numel
  shapeCasts_S1x4096x4_S4096x4 : S1x4096x4.ShapeCasts S4096x4
  inb_S1x4x512_S1x4x512_0_0_0 : ∀ a, (![0, 0, 0] : Fin 3 → Nat) a + S1x4x512.size a ≤ S1x4x512.size a
  h_S1x4x512 : 0 < S1x4x512.numel
  shapeCasts_S1x4x512_S4x512 : S1x4x512.ShapeCasts S4x512
  inb_S1x512x4_S1x512x4_0_0_0 : ∀ a, (![0, 0, 0] : Fin 3 → Nat) a + S1x512x4.size a ≤ S1x512x4.size a
  h_S1x512x4 : 0 < S1x512x4.numel
  shapeCasts_S1x512x4_S512x4 : S1x512x4.ShapeCasts S512x4
  inb_S1x4x4096_S1x4x4096_0_0_0 : ∀ a, (![0, 0, 0] : Fin 3 → Nat) a + S1x4x4096.size a ≤ S1x4x4096.size a
  h_S1x4x4096 : 0 < S1x4x4096.numel
  shapeCasts_S1x4x4096_S4x4096 : S1x4x4096.ShapeCasts S4x4096
  slices_S4096x4_o0_0_S4096x3 : S4096x4.Slices ![0, 0] S4096x3
  slices_S4x512_o0_0_S3x512 : S4x512.Slices ![0, 0] S3x512
  slices_S4096x4_o0_3_S4096x1 : S4096x4.Slices ![0, 3] S4096x1
  broadcasts_S4096x1_S4096x512 : S4096x1.Broadcasts S4096x512
  reduces_S4096x512_S512 : S4096x512.Reduces [0] S512
  slices_S4x512_o3_0_S1x512 : S4x512.Slices ![3, 0] S1x512
  shapeCasts_S1x512_S512 : S1x512.ShapeCasts S512
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  shapeCasts_S512_S1x1x512 : S512.ShapeCasts S1x1x512
  slices_S512x4_o0_0_S512x3 : S512x4.Slices ![0, 0] S512x3
  slices_S4x4096_o0_0_S3x4096 : S4x4096.Slices ![0, 0] S3x4096
  slices_S512x4_o0_3_S512x1 : S512x4.Slices ![0, 3] S512x1
  broadcasts_S512x1_S512x4096 : S512x1.Broadcasts S512x4096
  reduces_S512x4096_S4096 : S512x4096.Reduces [0] S4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S4096 : S1x1x4096.ShapeCasts S4096
  shapeCasts_S4096_S1x1x4096 : S4096.ShapeCasts S1x1x4096
  slices_S4x4096_o3_0_S1x4096 : S4x4096.Slices ![3, 0] S1x4096
  shapeCasts_S1x4096_S4096 : S1x4096.ShapeCasts S4096
  dot_S4096x3_S3x512_S4096x512_1_0_0_1_n_n_wf : DotDims.WF S4096x3 S3x512 S4096x512 [1] [0] [0] [1] [] []
  dot_S512x3_S3x4096_S512x4096_1_0_0_1_n_n_wf : DotDims.WF S512x3 S3x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x4.size a ≤ S8x4096x4.size a
  hwx0_0 : ∀ i : grid0.Coords, EltTy.bits .f32 = 32 ∨ (Rect.block (s := S8x4096x4) S1x4096x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x512.size a ≤ S8x4x4096.size a
  hwx0_1 : ∀ i : grid0.Coords, EltTy.bits .f32 = 32 ∨ (Rect.block (s := S8x4x4096) S1x4x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x4.size a ≤ S8x4096x4.size a
  hwx0_2 : ∀ i : grid0.Coords, EltTy.bits .f32 = 32 ∨ (Rect.block (s := S8x4096x4) S1x512x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x4096.size a ≤ S8x4x4096.size a
  hwx0_3 : ∀ i : grid0.Coords, EltTy.bits .f32 = 32 ∨ (Rect.block (s := S8x4x4096) S1x4x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x4096.size a ≤ S8x1x4096.size a
  hwx0_4 : ∀ i : grid0.Coords, EltTy.bits .f32 = 32 ∨ (Rect.block (s := S8x1x4096) S1x1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512.size a ≤ S8x1x4096.size a
  hwx0_5 : ∀ i : grid0.Coords, EltTy.bits .f32 = 32 ∨ (Rect.block (s := S8x1x4096) S1x1x512.size (cc0_transform_5 i) (hinb0_5 i)).WholeWords (EltTy.packing .f32)

variable [Facts₀]

def dot_S4096x3_S3x512_S4096x512_1_0_0_1_n_n : DotDims S4096x3 S3x512 S4096x512 where
  lhsContracting := [1]
  rhsContracting := [0]
  lhsNonContracting := [0]
  rhsNonContracting := [1]
  lhsBatch := []
  rhsBatch := []
  wf := dot_S4096x3_S3x512_S4096x512_1_0_0_1_n_n_wf
def dot_S512x3_S3x4096_S512x4096_1_0_0_1_n_n : DotDims S512x3 S3x4096 S512x4096 where
  lhsContracting := [1]
  rhsContracting := [0]
  lhsNonContracting := [0]
  rhsNonContracting := [1]
  lhsBatch := []
  rhsBatch := []
  wf := dot_S512x3_S3x4096_S512x4096_1_0_0_1_n_n_wf

abbrev win0_0 : Pipeline.Window sig grid0 :=
  Pipeline.Window.ofSpec (Memref.whole main_call0_v8) S1x4096x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v14) S1x4x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v11) S1x512x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v17) S1x4x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v18_0) S1x1x4096.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v18_1) S1x1x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond1 i == 1#1) && !(k0_cond2 i == 1#1) && !(k0_cond3 i == 1#1) | 5 => fun _ => false | ⟨_ + 6, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S8x4096 : Shape := ⟨2, ![8, 4096]⟩
abbrev S_ : Shape := ⟨0, ![]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 39
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096, .f32⟩
  | .hbm, ⟨3, _⟩ => ⟨S8x4096, .f32⟩
  | .hbm, ⟨4, _⟩ => ⟨S8x4096x3, .f32⟩
  | .hbm, ⟨5, _⟩ => ⟨S_, .f32⟩
  | .hbm, ⟨6, _⟩ => ⟨S8x4096, .f32⟩
  | .hbm, ⟨7, _⟩ => ⟨S8x4096x3, .f32⟩
  | .hbm, ⟨8, _⟩ => ⟨S_, .f32⟩
  | .hbm, ⟨9, _⟩ => ⟨S8x4096, .f32⟩
  | .hbm, ⟨10, _⟩ => ⟨S8x4096x4096, .f32⟩
  | .hbm, ⟨11, _⟩ => ⟨S8x4096x1, .f32⟩
  | .hbm, ⟨12, _⟩ => ⟨S8x1x4096, .f32⟩
  | .hbm, ⟨13, _⟩ => ⟨S8x4096x4096, .f32⟩
  | .hbm, ⟨14, _⟩ => ⟨S8x4096x4096, .f32⟩
  | .hbm, ⟨15, _⟩ => ⟨S8x4096x4096, .f32⟩
  | .hbm, ⟨16, _⟩ => ⟨S_, .f32⟩
  | .hbm, ⟨17, _⟩ => ⟨S8x4096x4096, .f32⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096, .f32⟩
  | .hbm, ⟨22, _⟩ => ⟨S_, .f32⟩
  | .hbm, ⟨23, _⟩ => ⟨S8x4096, .f32⟩
  | .hbm, ⟨24, _⟩ => ⟨S8x4096, .f32⟩
  | .hbm, ⟨25, _⟩ => ⟨S8x4096, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x4096_S_d0_1 : S8x4096.ReducesTo [0, 1] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.Body.lean ====
/-
  The kernel's one pallas_call, point by point.

  The grid is 8 clouds × 8 runs of 512 points of the second cloud. At each point the body stores the second result's block
  (the minimum over the first cloud, for that run's 512 points) and updates the first result's block, a running minimum
  over the runs that the pipeline writes back only after a cloud's last run. This file says what each point leaves in the
  two result blocks, that the body does so at every point, and hence that the whole program runs to the end and leaves
  its arguments unchanged; what the result arrays then hold is read off the same run.
-/
import proofs.«155851_g58342835749036_cont_9to1c4b_482_13_alg».proof.Proof.Gen.KernelIdeal.Frame
import proofs.«155851_g58342835749036_cont_9to1c4b_482_13_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The whole-block rectangles the body loads and stores through -/

abbrev rA : Rect S1x4096x4 := Rect.unit (s := S1x4096x4) ![0, 0, 0] S1x4096x4.size inb_S1x4096x4_S1x4096x4_0_0_0
abbrev rBt : Rect S1x4x512 := Rect.unit (s := S1x4x512) ![0, 0, 0] S1x4x512.size inb_S1x4x512_S1x4x512_0_0_0
abbrev rB2 : Rect S1x512x4 := Rect.unit (s := S1x512x4) ![0, 0, 0] S1x512x4.size inb_S1x512x4_S1x512x4_0_0_0
abbrev rAt : Rect S1x4x4096 := Rect.unit (s := S1x4x4096) ![0, 0, 0] S1x4x4096.size inb_S1x4x4096_S1x4x4096_0_0_0
abbrev rD1 : Rect S1x1x4096 := Rect.unit (s := S1x1x4096) ![0, 0, 0] S1x1x4096.size inb_S1x1x4096_S1x1x4096_0_0_0
abbrev rD2 : Rect S1x1x512 := Rect.unit (s := S1x1x512) ![0, 0, 0] S1x1x512.size inb_S1x1x512_S1x1x512_0_0_0

/-! ## What one grid point leaves in the two result blocks

A point sees four input blocks: `x0`, the first cloud's rows (−2·p | |p|²); `x1`, one run of the second cloud as columns
(q ; |q|²); `x2`, the same run as rows (−2·q | |q|²); `x3`, the first cloud as columns (p ; |p|²). It stores the second
result's block whole from `x0` and `x1`. The first result's block is a running minimum over the runs: the first run
stores its partial minimum, a middle run the minimum of what the block held and its own, the last run that minimum
plus the first cloud's norms. -/

/-- The second result's block: one whole store. -/
def outD2 (x0 : Vec F S1x4096x4 .f32) (x1 : Vec F S1x4x512 .f32) : Vec F S1x1x512 .f32 :=
  View.canon [⟨rD2, k0_pay4 (View.ld x0 rA) (View.ld x1 rBt)⟩]

/-- The first result's block after the first run: that run's partial minimum. -/
def outFirst (x2 : Vec F S1x512x4 .f32) (x3 : Vec F S1x4x4096 .f32) : Vec F S1x1x4096 .f32 :=
  View.canon [⟨rD1, k0_pay6 (View.ld x2 rB2) (View.ld x3 rAt)⟩]

/-- After a middle run: the minimum of what the block held (`acc`) and the run's partial minimum. -/
def outMid (x2 : Vec F S1x512x4 .f32) (x3 : Vec F S1x4x4096 .f32) (acc : Vec F S1x1x4096 .f32) : Vec F S1x1x4096 .f32 :=
  View.canon [⟨rD1, k0_pay1 (k0_pay5 (View.ld x2 rB2) (View.ld x3 rAt)) (View.ld acc rD1)⟩]

/-- After the last run: that minimum plus the first cloud's norms. -/
def outLast (x2 : Vec F S1x512x4 .f32) (x3 : Vec F S1x4x4096 .f32) (acc : Vec F S1x1x4096 .f32) : Vec F S1x1x4096 .f32 :=
  View.canon [⟨rD1, k0_pay2 (k0_pay3 (View.ld x3 rAt)) (k0_pay5 (View.ld x2 rB2) (View.ld x3 rAt)) (View.ld acc rD1)⟩]

/-- A whole-block store covers its block. -/
theorem coverD1 (p0 : Vec F S1x1x4096 .f32) (y : S1x1x4096.Idx) :
    ∃ pc ∈ ([⟨rD1, p0⟩] : List (View.Piece (Elt F) S1x1x4096 .f32)), y ∈ pc.1.set :=
  View.cover_of_tiled [⟨rD1, p0⟩] S1x1x4096.size (by rfl) y
theorem coverD2 (p0 : Vec F S1x1x512 .f32) (y : S1x1x512.Idx) :
    ∃ pc ∈ ([⟨rD2, p0⟩] : List (View.Piece (Elt F) S1x1x512 .f32)), y ∈ pc.1.set :=
  View.cover_of_tiled [⟨rD2, p0⟩] S1x1x512.size (by rfl) y

set_option maxHeartbeats 1000000 in
/-- The body at a point of the FIRST run (only the first conditional taken): the inputs are handed back as found, the
    first result's block holds the run's partial minimum whatever it held, the second result's block its store. -/
theorem body_first (c : Dev nD) (E : Set ℕ) (i : grid0.Coords)
    (a2 : Memref sig .tc .vmem S1x4096x4 .f32) (h2 : a2.IsWhole) (a3 : Memref sig .tc .vmem S1x4x512 .f32) (h3 : a3.IsWhole)
    (a4 : Memref sig .tc .vmem S1x512x4 .f32) (h4 : a4.IsWhole) (a5 : Memref sig .tc .vmem S1x4x4096 .f32) (h5 : a5.IsWhole)
    (a6 : Memref sig .tc .vmem S1x1x4096 .f32) (h6 : a6.IsWhole) (a7 : Memref sig .tc .vmem S1x1x512 .f32) (h7 : a7.IsWhole)
    (hc1 : k0_cond1 i = 1#1) (hc2 : ¬ k0_cond2 i = 1#1) (hc3 : ¬ k0_cond3 i = 1#1)
    (x0 : Vec F S1x4096x4 .f32) (x1 : Vec F S1x4x512 .f32) (x2 : Vec F S1x512x4 .f32) (x3 : Vec F S1x4x4096 .f32) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ (∃ d, owns (c : Thread nD τ) a6 fullShare d) ∗ (∃ d, owns (c : Thread nD τ) a7 fullShare d)
        ∗ (iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare (outFirst x2 x3) ∗ owns (c : Thread nD τ) a7 fullShare (outD2 x0 x1)) -∗ K ⟨⟩))
      ⊢ wp frame (wpE (defs₀ (F := F)) Variants.none c none) E (cc0__chamfer_body i a2 h2 a3 h3 a4 h4 a5 h5 a6 h6 a7 h7) K := by
  simp only [cc0__chamfer_body_eq_skeleton]; unfold cc0__chamfer_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverD1 _)
  iexists _; isplitr
  swap; · iexact H5
  ipureintro
  exact View.read_writes_eq_canon _ _ _ (coverD2 _)

set_option maxHeartbeats 1000000 in
/-- The body at a point of a MIDDLE run (only the second conditional taken): the first result's block, found at `acc`,
    ends at the minimum of `acc` and the run's partial minimum. -/
theorem body_mid (c : Dev nD) (E : Set ℕ) (i : grid0.Coords)
    (a2 : Memref sig .tc .vmem S1x4096x4 .f32) (h2 : a2.IsWhole) (a3 : Memref sig .tc .vmem S1x4x512 .f32) (h3 : a3.IsWhole)
    (a4 : Memref sig .tc .vmem S1x512x4 .f32) (h4 : a4.IsWhole) (a5 : Memref sig .tc .vmem S1x4x4096 .f32) (h5 : a5.IsWhole)
    (a6 : Memref sig .tc .vmem S1x1x4096 .f32) (h6 : a6.IsWhole) (a7 : Memref sig .tc .vmem S1x1x512 .f32) (h7 : a7.IsWhole)
    (hc1 : ¬ k0_cond1 i = 1#1) (hc2 : k0_cond2 i = 1#1) (hc3 : ¬ k0_cond3 i = 1#1)
    (x0 : Vec F S1x4096x4 .f32) (x1 : Vec F S1x4x512 .f32) (x2 : Vec F S1x512x4 .f32) (x3 : Vec F S1x4x4096 .f32) (acc : Vec F S1x1x4096 .f32) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare acc ∗ (∃ d, owns (c : Thread nD τ) a7 fullShare d)
        ∗ (iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare (outMid x2 x3 acc) ∗ owns (c : Thread nD τ) a7 fullShare (outD2 x0 x1)) -∗ K ⟨⟩))
      ⊢ wp frame (wpE (defs₀ (F := F)) Variants.none c none) E (cc0__chamfer_body i a2 h2 a3 h3 a4 h4 a5 h5 a6 h6 a7 h7) K := by
  simp only [cc0__chamfer_body_eq_skeleton]; unfold cc0__chamfer_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverD1 _)
  iexists _; isplitr
  swap; · iexact H5
  ipureintro
  exact View.read_writes_eq_canon _ _ _ (coverD2 _)

set_option maxHeartbeats 1000000 in
/-- The body at a point of the LAST run (only the third conditional taken): the first result's block, found at `acc`,
    ends at the minimum of `acc` and the run's partial minimum, plus the first cloud's norms. -/
theorem body_last (c : Dev nD) (E : Set ℕ) (i : grid0.Coords)
    (a2 : Memref sig .tc .vmem S1x4096x4 .f32) (h2 : a2.IsWhole) (a3 : Memref sig .tc .vmem S1x4x512 .f32) (h3 : a3.IsWhole)
    (a4 : Memref sig .tc .vmem S1x512x4 .f32) (h4 : a4.IsWhole) (a5 : Memref sig .tc .vmem S1x4x4096 .f32) (h5 : a5.IsWhole)
    (a6 : Memref sig .tc .vmem S1x1x4096 .f32) (h6 : a6.IsWhole) (a7 : Memref sig .tc .vmem S1x1x512 .f32) (h7 : a7.IsWhole)
    (hc1 : ¬ k0_cond1 i = 1#1) (hc2 : ¬ k0_cond2 i = 1#1) (hc3 : k0_cond3 i = 1#1)
    (x0 : Vec F S1x4096x4 .f32) (x1 : Vec F S1x4x512 .f32) (x2 : Vec F S1x512x4 .f32) (x3 : Vec F S1x4x4096 .f32) (acc : Vec F S1x1x4096 .f32) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare acc ∗ (∃ d, owns (c : Thread nD τ) a7 fullShare d)
        ∗ (iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare (outLast x2 x3 acc) ∗ owns (c : Thread nD τ) a7 fullShare (outD2 x0 x1)) -∗ K ⟨⟩))
      ⊢ wp frame (wpE (defs₀ (F := F)) Variants.none c none) E (cc0__chamfer_body i a2 h2 a3 h3 a4 h4 a5 h5 a6 h6 a7 h7) K := by
  simp only [cc0__chamfer_body_eq_skeleton]; unfold cc0__chamfer_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverD1 _)
  iexists _; isplitr
  swap; · iexact H5
  ipureintro
  exact View.read_writes_eq_canon _ _ _ (coverD2 _)

/-! ## Which run a grid point is in -/

/-- The grid is 8 clouds by 8 runs, the run the fast axis: point `t` is in run `t % 8`. The three conditionals are
    "first run", "neither first nor last", "last run". -/
theorem cond1_iff : ∀ t : Fin cfg0.N, k0_cond1 (grid0.coords t) = 1#1 ↔ t.val % 8 = 0 :=
  (by decide +kernel : ∀ t : Fin grid0.N, k0_cond1 (grid0.coords t) = 1#1 ↔ t.val % 8 = 0)
theorem cond2_iff : ∀ t : Fin cfg0.N, k0_cond2 (grid0.coords t) = 1#1 ↔ (t.val % 8 ≠ 0 ∧ t.val % 8 ≠ 7) :=
  (by decide +kernel : ∀ t : Fin grid0.N, k0_cond2 (grid0.coords t) = 1#1 ↔ (t.val % 8 ≠ 0 ∧ t.val % 8 ≠ 7))
theorem cond3_iff : ∀ t : Fin cfg0.N, k0_cond3 (grid0.coords t) = 1#1 ↔ t.val % 8 = 7 :=
  (by decide +kernel : ∀ t : Fin grid0.N, k0_cond3 (grid0.coords t) = 1#1 ↔ t.val % 8 = 7)

/-- Every run is first, middle or last, so the first result's block is stored into at every point. -/
theorem live4 (i : grid0.Coords) : cfg0.idle 4 i = false := by
  show (!(k0_cond1 i == 1#1) && !(k0_cond2 i == 1#1) && !(k0_cond3 i == 1#1)) = false
  unfold k0_cond1 k0_cond2 k0_cond3
  dsimp only
  generalize (i 1) = j
  revert j
  decide +kernel

/-! ## What the first result's block holds after each point -/

/-- The running minimum in the first result's staging block after point `n`: a first run starts it afresh, the others
    continue from what the point before left (the block is written back only after a cloud's last run). -/
def accAt (c : Dev nD) : (n : ℕ) → n < cfg0.N → Vec F S1x1x4096 .f32
  | 0, hn => outFirst (iblk m c 2 ⟨0, hn⟩) (iblk m c 3 ⟨0, hn⟩)
  | n + 1, hn =>
    if (n + 1) % 8 = 0 then outFirst (iblk m c 2 ⟨n + 1, hn⟩) (iblk m c 3 ⟨n + 1, hn⟩)
    else if (n + 1) % 8 = 7 then outLast (iblk m c 2 ⟨n + 1, hn⟩) (iblk m c 3 ⟨n + 1, hn⟩) (accAt c n (Nat.lt_of_succ_lt hn))
    else outMid (iblk m c 2 ⟨n + 1, hn⟩) (iblk m c 3 ⟨n + 1, hn⟩) (accAt c n (Nat.lt_of_succ_lt hn))

theorem accAt_first (c : Dev nD) (t : Fin cfg0.N) (h0 : t.val % 8 = 0) :
    accAt m c t.val t.isLt = outFirst (iblk m c 2 t) (iblk m c 3 t) := by
  obtain ⟨n, hn⟩ := t
  cases n with
  | zero => rfl
  | succ n => exact (if_pos h0).trans rfl

theorem accAt_last (c : Dev nD) (t : Fin cfg0.N) (h7 : t.val % 8 = 7) :
    accAt m c t.val t.isLt = outLast (iblk m c 2 t) (iblk m c 3 t) (accAt m c (t.val - 1) (Nat.lt_of_le_of_lt (Nat.sub_le _ _) t.isLt)) := by
  obtain ⟨n, hn⟩ := t
  cases n with
  | zero => exact absurd h7 (by dsimp only; omega)
  | succ n =>
    have h0 : ¬ (n + 1) % 8 = 0 := by dsimp only at h7; omega
    exact (if_neg h0).trans ((if_pos h7).trans rfl)

theorem accAt_mid (c : Dev nD) (t : Fin cfg0.N) (h0 : ¬ t.val % 8 = 0) (h7 : ¬ t.val % 8 = 7) :
    accAt m c t.val t.isLt = outMid (iblk m c 2 t) (iblk m c 3 t) (accAt m c (t.val - 1) (Nat.lt_of_le_of_lt (Nat.sub_le _ _) t.isLt)) := by
  obtain ⟨n, hn⟩ := t
  cases n with
  | zero => exact absurd (Nat.zero_mod 8) h0
  | succ n => exact (if_neg h0).trans ((if_neg h7).trans rfl)

/-! ## The pipeline's proof data -/

/-- The arrays as the call finds them; after the body each input block in place, the first result's block at the running
    minimum, the second result's at its store. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val t.isLt
    | ⟨5, _⟩ => outD2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = accAt m c t.val t.isLt := by dsimp only [dats]
theorem after_5 (c : Dev nD) (t : Fin cfg0.N) : (dats m 0 c).after 5 t = outD2 (iblk m c 0 t) (iblk m c 1 t) := by dsimp only [dats]

/-- Each input's staging block holds its block of the array at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- At a point that is not a first run the first result's staging block holds what the point before left: the point
    before is in the same cloud and not its last run, so nothing was written back in between. -/
theorem before_4 (c : Dev nD) (t : Fin cfg0.N) (h0 : ¬ t.val % 8 = 0) (d) :
    (dats m 0 c).before 4 t d = accAt m c (t.val - 1) (Nat.lt_of_le_of_lt (Nat.sub_le _ _) t.isLt) := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    live4 (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 800000 in
/-- The body at any point: which run the point is in picks the case; in the later runs the first result's block is found
    at the running minimum. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5]
  by_cases h0 : t.val % 8 = 0
  · rw [accAt_first m c t h0]
    iintro ⟨HΦ, Ho, ⟨%d0, H0⟩, ⟨%d1, H1⟩, ⟨%d2, H2⟩, ⟨%d3, H3⟩, ⟨%d4, H4⟩, ⟨%d5, H5⟩⟩
    iapply (body_first c Set.univ (grid0.coords t) _ _ _ _ _ _ _ _ _ _ _ _ ((cond1_iff t).mpr h0)
      (fun h => ((cond2_iff t).mp h).1 h0) (fun h => by have := (cond3_iff t).mp h; omega)
      (iblk m c 0 t) (iblk m c 1 t) (iblk m c 2 t) (iblk m c 3 t) _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · simp only [before_4 m c t h0]
    by_cases h7 : t.val % 8 = 7
    · rw [accAt_last m c t h7]
      iintro ⟨HΦ, Ho, ⟨%d0, H0⟩, ⟨%d1, H1⟩, ⟨%d2, H2⟩, ⟨%d3, H3⟩, ⟨%d4, H4⟩, ⟨%d5, H5⟩⟩
      iapply (body_last c Set.univ (grid0.coords t) _ _ _ _ _ _ _ _ _ _ _ _ (fun h => h0 ((cond1_iff t).mp h))
        (fun h => ((cond2_iff t).mp h).2 h7) ((cond3_iff t).mpr h7)
        (iblk m c 0 t) (iblk m c 1 t) (iblk m c 2 t) (iblk m c 3 t) _ _)
      isplitl [H0]; · iexact H0
      isplitl [H1]; · iexact H1
      isplitl [H2]; · iexact H2
      isplitl [H3]; · iexact H3
      isplitl [H4]; · iexact H4
      isplitl [H5]; · iexists _; iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5
    · rw [accAt_mid m c t h0 h7]
      iintro ⟨HΦ, Ho, ⟨%d0, H0⟩, ⟨%d1, H1⟩, ⟨%d2, H2⟩, ⟨%d3, H3⟩, ⟨%d4, H4⟩, ⟨%d5, H5⟩⟩
      iapply (body_mid c Set.univ (grid0.coords t) _ _ _ _ _ _ _ _ _ _ _ _ (fun h => h0 ((cond1_iff t).mp h))
        ((cond2_iff t).mpr ⟨h0, h7⟩) (fun h => h7 ((cond3_iff t).mp h))
        (iblk m c 0 t) (iblk m c 1 t) (iblk m c 2 t) (iblk m c 3 t) _ _)
      isplitl [H0]; · iexact H0
      isplitl [H1]; · iexact H1
      isplitl [H2]; · iexact H2
      isplitl [H3]; · iexact H3
      isplitl [H4]; · iexact H4
      isplitl [H5]; · iexists _; iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5

set_option maxHeartbeats 800000 in
/-- The body obligation of the pipeline, at every point. -/
theorem body_obligation (c : Dev nD) : BodyObligation (dats (F := F) m 0 c) (defs₀ (F := F)) Variants.none () Set.univ := fun t => by
  rw [bigSep_W0, bigSep_W0]
  rw [show cfg0.idle 4 (cfg0.grid.coords t) = false from live4 _]
  exact sound_body m c t

/-! ## The run and the frame -/

set_option backward.isDefEq.respectTransparency.types false in
/-- Every weakly fair execution of the program terminates, and every final state has each array of the pipeline at what
    the write-backs left and every other buffer as the lines after the call leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere and leaves its four argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.BodyK.lean ====
/-
  The kernel's one pallas_call, point by point.

  The grid is 8 clouds × 8 runs of 512 points of the second cloud. At each point the body stores the second result's block
  (the minimum over the first cloud, for that run's 512 points) and updates the first result's block, a running minimum
  over the runs that the pipeline writes back only after a cloud's last run. This file says what each point leaves in the
  two result blocks, that the body does so at every point, and hence that the whole program runs to the end and leaves
  its arguments unchanged; what the result arrays then hold is read off the same run.
-/
import proofs.«155851_g58342835749036_cont_9to1c4b_482_13_alg».proof.Proof.Gen.Kernel.Frame
import proofs.«155851_g58342835749036_cont_9to1c4b_482_13_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The whole-block rectangles the body loads and stores through -/

abbrev rA : Rect S1x4096x4 := Rect.unit (s := S1x4096x4) ![0, 0, 0] S1x4096x4.size inb_S1x4096x4_S1x4096x4_0_0_0
abbrev rBt : Rect S1x4x512 := Rect.unit (s := S1x4x512) ![0, 0, 0] S1x4x512.size inb_S1x4x512_S1x4x512_0_0_0
abbrev rB2 : Rect S1x512x4 := Rect.unit (s := S1x512x4) ![0, 0, 0] S1x512x4.size inb_S1x512x4_S1x512x4_0_0_0
abbrev rAt : Rect S1x4x4096 := Rect.unit (s := S1x4x4096) ![0, 0, 0] S1x4x4096.size inb_S1x4x4096_S1x4x4096_0_0_0
abbrev rD1 : Rect S1x1x4096 := Rect.unit (s := S1x1x4096) ![0, 0, 0] S1x1x4096.size inb_S1x1x4096_S1x1x4096_0_0_0
abbrev rD2 : Rect S1x1x512 := Rect.unit (s := S1x1x512) ![0, 0, 0] S1x1x512.size inb_S1x1x512_S1x1x512_0_0_0

/-! ## What one grid point leaves in the two result blocks

A point sees four input blocks: `x0`, the first cloud's rows (−2·p | |p|²); `x1`, one run of the second cloud as columns
(q ; |q|²); `x2`, the same run as rows (−2·q | |q|²); `x3`, the first cloud as columns (p ; |p|²). It stores the second
result's block whole from `x0` and `x1`. The first result's block is a running minimum over the runs: the first run
stores its partial minimum, a middle run the minimum of what the block held and its own, the last run that minimum
plus the first cloud's norms. -/

/-- The second result's block: one whole store. -/
def outD2 (x0 : Vec F S1x4096x4 .f32) (x1 : Vec F S1x4x512 .f32) : Vec F S1x1x512 .f32 :=
  View.canon [⟨rD2, k0_pay4 (View.ld x0 rA) (View.ld x1 rBt)⟩]

/-- The first result's block after the first run: that run's partial minimum. -/
def outFirst (x2 : Vec F S1x512x4 .f32) (x3 : Vec F S1x4x4096 .f32) : Vec F S1x1x4096 .f32 :=
  View.canon [⟨rD1, k0_pay6 (View.ld x2 rB2) (View.ld x3 rAt)⟩]

/-- After a middle run: the minimum of what the block held (`acc`) and the run's partial minimum. -/
def outMid (x2 : Vec F S1x512x4 .f32) (x3 : Vec F S1x4x4096 .f32) (acc : Vec F S1x1x4096 .f32) : Vec F S1x1x4096 .f32 :=
  View.canon [⟨rD1, k0_pay1 (k0_pay5 (View.ld x2 rB2) (View.ld x3 rAt)) (View.ld acc rD1)⟩]

/-- After the last run: that minimum plus the first cloud's norms. -/
def outLast (x2 : Vec F S1x512x4 .f32) (x3 : Vec F S1x4x4096 .f32) (acc : Vec F S1x1x4096 .f32) : Vec F S1x1x4096 .f32 :=
  View.canon [⟨rD1, k0_pay2 (k0_pay3 (View.ld x3 rAt)) (k0_pay5 (View.ld x2 rB2) (View.ld x3 rAt)) (View.ld acc rD1)⟩]

/-- A whole-block store covers its block. -/
theorem coverD1 (p0 : Vec F S1x1x4096 .f32) (y : S1x1x4096.Idx) :
    ∃ pc ∈ ([⟨rD1, p0⟩] : List (View.Piece (Elt F) S1x1x4096 .f32)), y ∈ pc.1.set :=
  View.cover_of_tiled [⟨rD1, p0⟩] S1x1x4096.size (by rfl) y
theorem coverD2 (p0 : Vec F S1x1x512 .f32) (y : S1x1x512.Idx) :
    ∃ pc ∈ ([⟨rD2, p0⟩] : List (View.Piece (Elt F) S1x1x512 .f32)), y ∈ pc.1.set :=
  View.cover_of_tiled [⟨rD2, p0⟩] S1x1x512.size (by rfl) y

set_option maxHeartbeats 1000000 in
/-- The body at a point of the FIRST run (only the first conditional taken): the inputs are handed back as found, the
    first result's block holds the run's partial minimum whatever it held, the second result's block its store. -/
theorem body_first (c : Dev nD) (E : Set ℕ) (i : grid0.Coords)
    (a2 : Memref sig .tc .vmem S1x4096x4 .f32) (h2 : a2.IsWhole) (a3 : Memref sig .tc .vmem S1x4x512 .f32) (h3 : a3.IsWhole)
    (a4 : Memref sig .tc .vmem S1x512x4 .f32) (h4 : a4.IsWhole) (a5 : Memref sig .tc .vmem S1x4x4096 .f32) (h5 : a5.IsWhole)
    (a6 : Memref sig .tc .vmem S1x1x4096 .f32) (h6 : a6.IsWhole) (a7 : Memref sig .tc .vmem S1x1x512 .f32) (h7 : a7.IsWhole)
    (hc1 : k0_cond1 i = 1#1) (hc2 : ¬ k0_cond2 i = 1#1) (hc3 : ¬ k0_cond3 i = 1#1)
    (x0 : Vec F S1x4096x4 .f32) (x1 : Vec F S1x4x512 .f32) (x2 : Vec F S1x512x4 .f32) (x3 : Vec F S1x4x4096 .f32) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ (∃ d, owns (c : Thread nD τ) a6 fullShare d) ∗ (∃ d, owns (c : Thread nD τ) a7 fullShare d)
        ∗ (iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare (outFirst x2 x3) ∗ owns (c : Thread nD τ) a7 fullShare (outD2 x0 x1)) -∗ K ⟨⟩))
      ⊢ wp frame (wpE (defs₀ (F := F)) Variants.none c none) E (cc0__chamfer_body i a2 h2 a3 h3 a4 h4 a5 h5 a6 h6 a7 h7) K := by
  simp only [cc0__chamfer_body_eq_skeleton]; unfold cc0__chamfer_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverD1 _)
  iexists _; isplitr
  swap; · iexact H5
  ipureintro
  exact View.read_writes_eq_canon _ _ _ (coverD2 _)

set_option maxHeartbeats 1000000 in
/-- The body at a point of a MIDDLE run (only the second conditional taken): the first result's block, found at `acc`,
    ends at the minimum of `acc` and the run's partial minimum. -/
theorem body_mid (c : Dev nD) (E : Set ℕ) (i : grid0.Coords)
    (a2 : Memref sig .tc .vmem S1x4096x4 .f32) (h2 : a2.IsWhole) (a3 : Memref sig .tc .vmem S1x4x512 .f32) (h3 : a3.IsWhole)
    (a4 : Memref sig .tc .vmem S1x512x4 .f32) (h4 : a4.IsWhole) (a5 : Memref sig .tc .vmem S1x4x4096 .f32) (h5 : a5.IsWhole)
    (a6 : Memref sig .tc .vmem S1x1x4096 .f32) (h6 : a6.IsWhole) (a7 : Memref sig .tc .vmem S1x1x512 .f32) (h7 : a7.IsWhole)
    (hc1 : ¬ k0_cond1 i = 1#1) (hc2 : k0_cond2 i = 1#1) (hc3 : ¬ k0_cond3 i = 1#1)
    (x0 : Vec F S1x4096x4 .f32) (x1 : Vec F S1x4x512 .f32) (x2 : Vec F S1x512x4 .f32) (x3 : Vec F S1x4x4096 .f32) (acc : Vec F S1x1x4096 .f32) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare acc ∗ (∃ d, owns (c : Thread nD τ) a7 fullShare d)
        ∗ (iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare (outMid x2 x3 acc) ∗ owns (c : Thread nD τ) a7 fullShare (outD2 x0 x1)) -∗ K ⟨⟩))
      ⊢ wp frame (wpE (defs₀ (F := F)) Variants.none c none) E (cc0__chamfer_body i a2 h2 a3 h3 a4 h4 a5 h5 a6 h6 a7 h7) K := by
  simp only [cc0__chamfer_body_eq_skeleton]; unfold cc0__chamfer_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverD1 _)
  iexists _; isplitr
  swap; · iexact H5
  ipureintro
  exact View.read_writes_eq_canon _ _ _ (coverD2 _)

set_option maxHeartbeats 1000000 in
/-- The body at a point of the LAST run (only the third conditional taken): the first result's block, found at `acc`,
    ends at the minimum of `acc` and the run's partial minimum, plus the first cloud's norms. -/
theorem body_last (c : Dev nD) (E : Set ℕ) (i : grid0.Coords)
    (a2 : Memref sig .tc .vmem S1x4096x4 .f32) (h2 : a2.IsWhole) (a3 : Memref sig .tc .vmem S1x4x512 .f32) (h3 : a3.IsWhole)
    (a4 : Memref sig .tc .vmem S1x512x4 .f32) (h4 : a4.IsWhole) (a5 : Memref sig .tc .vmem S1x4x4096 .f32) (h5 : a5.IsWhole)
    (a6 : Memref sig .tc .vmem S1x1x4096 .f32) (h6 : a6.IsWhole) (a7 : Memref sig .tc .vmem S1x1x512 .f32) (h7 : a7.IsWhole)
    (hc1 : ¬ k0_cond1 i = 1#1) (hc2 : ¬ k0_cond2 i = 1#1) (hc3 : k0_cond3 i = 1#1)
    (x0 : Vec F S1x4096x4 .f32) (x1 : Vec F S1x4x512 .f32) (x2 : Vec F S1x512x4 .f32) (x3 : Vec F S1x4x4096 .f32) (acc : Vec F S1x1x4096 .f32) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare acc ∗ (∃ d, owns (c : Thread nD τ) a7 fullShare d)
        ∗ (iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare (outLast x2 x3 acc) ∗ owns (c : Thread nD τ) a7 fullShare (outD2 x0 x1)) -∗ K ⟨⟩))
      ⊢ wp frame (wpE (defs₀ (F := F)) Variants.none c none) E (cc0__chamfer_body i a2 h2 a3 h3 a4 h4 a5 h5 a6 h6 a7 h7) K := by
  simp only [cc0__chamfer_body_eq_skeleton]; unfold cc0__chamfer_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverD1 _)
  iexists _; isplitr
  swap; · iexact H5
  ipureintro
  exact View.read_writes_eq_canon _ _ _ (coverD2 _)

/-! ## Which run a grid point is in -/

/-- The grid is 8 clouds by 8 runs, the run the fast axis: point `t` is in run `t % 8`. The three conditionals are
    "first run", "neither first nor last", "last run". -/
theorem cond1_iff : ∀ t : Fin cfg0.N, k0_cond1 (grid0.coords t) = 1#1 ↔ t.val % 8 = 0 :=
  (by decide +kernel : ∀ t : Fin grid0.N, k0_cond1 (grid0.coords t) = 1#1 ↔ t.val % 8 = 0)
theorem cond2_iff : ∀ t : Fin cfg0.N, k0_cond2 (grid0.coords t) = 1#1 ↔ (t.val % 8 ≠ 0 ∧ t.val % 8 ≠ 7) :=
  (by decide +kernel : ∀ t : Fin grid0.N, k0_cond2 (grid0.coords t) = 1#1 ↔ (t.val % 8 ≠ 0 ∧ t.val % 8 ≠ 7))
theorem cond3_iff : ∀ t : Fin cfg0.N, k0_cond3 (grid0.coords t) = 1#1 ↔ t.val % 8 = 7 :=
  (by decide +kernel : ∀ t : Fin grid0.N, k0_cond3 (grid0.coords t) = 1#1 ↔ t.val % 8 = 7)

/-- Every run is first, middle or last, so the first result's block is stored into at every point. -/
theorem live4 (i : grid0.Coords) : cfg0.idle 4 i = false := by
  show (!(k0_cond1 i == 1#1) && !(k0_cond2 i == 1#1) && !(k0_cond3 i == 1#1)) = false
  unfold k0_cond1 k0_cond2 k0_cond3
  dsimp only
  generalize (i 1) = j
  revert j
  decide +kernel

/-! ## What the first result's block holds after each point -/

/-- The running minimum in the first result's staging block after point `n`: a first run starts it afresh, the others
    continue from what the point before left (the block is written back only after a cloud's last run). -/
def accAt (c : Dev nD) : (n : ℕ) → n < cfg0.N → Vec F S1x1x4096 .f32
  | 0, hn => outFirst (iblk m c 2 ⟨0, hn⟩) (iblk m c 3 ⟨0, hn⟩)
  | n + 1, hn =>
    if (n + 1) % 8 = 0 then outFirst (iblk m c 2 ⟨n + 1, hn⟩) (iblk m c 3 ⟨n + 1, hn⟩)
    else if (n + 1) % 8 = 7 then outLast (iblk m c 2 ⟨n + 1, hn⟩) (iblk m c 3 ⟨n + 1, hn⟩) (accAt c n (Nat.lt_of_succ_lt hn))
    else outMid (iblk m c 2 ⟨n + 1, hn⟩) (iblk m c 3 ⟨n + 1, hn⟩) (accAt c n (Nat.lt_of_succ_lt hn))

theorem accAt_first (c : Dev nD) (t : Fin cfg0.N) (h0 : t.val % 8 = 0) :
    accAt m c t.val t.isLt = outFirst (iblk m c 2 t) (iblk m c 3 t) := by
  obtain ⟨n, hn⟩ := t
  cases n with
  | zero => rfl
  | succ n => exact (if_pos h0).trans rfl

theorem accAt_last (c : Dev nD) (t : Fin cfg0.N) (h7 : t.val % 8 = 7) :
    accAt m c t.val t.isLt = outLast (iblk m c 2 t) (iblk m c 3 t) (accAt m c (t.val - 1) (Nat.lt_of_le_of_lt (Nat.sub_le _ _) t.isLt)) := by
  obtain ⟨n, hn⟩ := t
  cases n with
  | zero => exact absurd h7 (by dsimp only; omega)
  | succ n =>
    have h0 : ¬ (n + 1) % 8 = 0 := by dsimp only at h7; omega
    exact (if_neg h0).trans ((if_pos h7).trans rfl)

theorem accAt_mid (c : Dev nD) (t : Fin cfg0.N) (h0 : ¬ t.val % 8 = 0) (h7 : ¬ t.val % 8 = 7) :
    accAt m c t.val t.isLt = outMid (iblk m c 2 t) (iblk m c 3 t) (accAt m c (t.val - 1) (Nat.lt_of_le_of_lt (Nat.sub_le _ _) t.isLt)) := by
  obtain ⟨n, hn⟩ := t
  cases n with
  | zero => exact absurd (Nat.zero_mod 8) h0
  | succ n => exact (if_neg h0).trans ((if_neg h7).trans rfl)

/-! ## The pipeline's proof data -/

/-- The arrays as the call finds them; after the body each input block in place, the first result's block at the running
    minimum, the second result's at its store. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val t.isLt
    | ⟨5, _⟩ => outD2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = accAt m c t.val t.isLt := by dsimp only [dats]
theorem after_5 (c : Dev nD) (t : Fin cfg0.N) : (dats m 0 c).after 5 t = outD2 (iblk m c 0 t) (iblk m c 1 t) := by dsimp only [dats]

/-- Each input's staging block holds its block of the array at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- At a point that is not a first run the first result's staging block holds what the point before left: the point
    before is in the same cloud and not its last run, so nothing was written back in between. -/
theorem before_4 (c : Dev nD) (t : Fin cfg0.N) (h0 : ¬ t.val % 8 = 0) (d) :
    (dats m 0 c).before 4 t d = accAt m c (t.val - 1) (Nat.lt_of_le_of_lt (Nat.sub_le _ _) t.isLt) := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    live4 (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 800000 in
/-- The body at any point: which run the point is in picks the case; in the later runs the first result's block is found
    at the running minimum. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5]
  by_cases h0 : t.val % 8 = 0
  · rw [accAt_first m c t h0]
    iintro ⟨HΦ, Ho, ⟨%d0, H0⟩, ⟨%d1, H1⟩, ⟨%d2, H2⟩, ⟨%d3, H3⟩, ⟨%d4, H4⟩, ⟨%d5, H5⟩⟩
    iapply (body_first c Set.univ (grid0.coords t) _ _ _ _ _ _ _ _ _ _ _ _ ((cond1_iff t).mpr h0)
      (fun h => ((cond2_iff t).mp h).1 h0) (fun h => by have := (cond3_iff t).mp h; omega)
      (iblk m c 0 t) (iblk m c 1 t) (iblk m c 2 t) (iblk m c 3 t) _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · simp only [before_4 m c t h0]
    by_cases h7 : t.val % 8 = 7
    · rw [accAt_last m c t h7]
      iintro ⟨HΦ, Ho, ⟨%d0, H0⟩, ⟨%d1, H1⟩, ⟨%d2, H2⟩, ⟨%d3, H3⟩, ⟨%d4, H4⟩, ⟨%d5, H5⟩⟩
      iapply (body_last c Set.univ (grid0.coords t) _ _ _ _ _ _ _ _ _ _ _ _ (fun h => h0 ((cond1_iff t).mp h))
        (fun h => ((cond2_iff t).mp h).2 h7) ((cond3_iff t).mpr h7)
        (iblk m c 0 t) (iblk m c 1 t) (iblk m c 2 t) (iblk m c 3 t) _ _)
      isplitl [H0]; · iexact H0
      isplitl [H1]; · iexact H1
      isplitl [H2]; · iexact H2
      isplitl [H3]; · iexact H3
      isplitl [H4]; · iexact H4
      isplitl [H5]; · iexists _; iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5
    · rw [accAt_mid m c t h0 h7]
      iintro ⟨HΦ, Ho, ⟨%d0, H0⟩, ⟨%d1, H1⟩, ⟨%d2, H2⟩, ⟨%d3, H3⟩, ⟨%d4, H4⟩, ⟨%d5, H5⟩⟩
      iapply (body_mid c Set.univ (grid0.coords t) _ _ _ _ _ _ _ _ _ _ _ _ (fun h => h0 ((cond1_iff t).mp h))
        ((cond2_iff t).mpr ⟨h0, h7⟩) (fun h => h7 ((cond3_iff t).mp h))
        (iblk m c 0 t) (iblk m c 1 t) (iblk m c 2 t) (iblk m c 3 t) _ _)
      isplitl [H0]; · iexact H0
      isplitl [H1]; · iexact H1
      isplitl [H2]; · iexact H2
      isplitl [H3]; · iexact H3
      isplitl [H4]; · iexact H4
      isplitl [H5]; · iexists _; iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5

set_option maxHeartbeats 800000 in
/-- The body obligation of the pipeline, at every point. -/
theorem body_obligation (c : Dev nD) : BodyObligation (dats (F := F) m 0 c) (defs₀ (F := F)) Variants.none () Set.univ := fun t => by
  rw [bigSep_W0, bigSep_W0]
  rw [show cfg0.idle 4 (cfg0.grid.coords t) = false from live4 _]
  exact sound_body m c t

/-! ## The run and the frame -/

set_option backward.isDefEq.respectTransparency.types false in
/-- Every weakly fair execution of the program terminates, and every final state has each array of the pipeline at what
    the write-backs left and every other buffer as the lines after the call leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere and leaves its four argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.Spec.lean ====
/-
  Chamfer distance between two batches of point clouds, as the two programs compute it.

  A batch holds 8 clouds of 4096 points of 3-space. For points p of the first cloud and q of the second the squared
  distance is |p|² + |q|² − 2⟨p, q⟩. The reference forms exactly that and takes minima over q (per p) and over p (per q).
  The kernel never forms the distance: it folds the factor −2 into one operand of the inner product, adds only the norm
  of the point being minimised over before the minimum, adds the other norm after it, and takes the minimum over the
  second cloud in 8 runs of 512 points whose partial minima are combined one after the other.
  This file states both readings, element by element, over the extended reals. Nothing here is about a program.
-/
import Idealize.ShloMosaic.Lib.ValueIdx
import Idealize.ShloMosaic.PureOps.Ideal.Laws

noncomputable section

open scoped BigOperators

namespace Chamfer

open Idealize.ShloMosaic Idealize.ShloMosaic.ValueIdx

/-- A batch of 8 clouds of 4096 points with 3 coordinates each. -/
abbrev Cloud : Type := (⟨3, ![8, 4096, 3]⟩ : Shape).Idx → EReal

/-- The four float literals the programs use, by their words: −2, 2, 0 and +∞. -/
def negTwo : EReal := Ideal.ofBits .f32 0xC0000000#32
def two : EReal := Ideal.ofBits .f32 0x40000000#32
def zero : EReal := Ideal.ofBits .f32 0x00000000#32
def inf : EReal := Ideal.ofBits .f32 0x7F800000#32

/-- The squared norm of point `n` of cloud `b`: a sum of three squares started from the zero literal. -/
def sq (x : Cloud) (b : Fin 8) (n : Fin 4096) : EReal :=
  zero + ∑ k : Fin 3, x (ix3 b n k) * x (ix3 b n k)

/-- The inner product of point `p` of `x` with point `q` of `y`, in cloud `b`. -/
def cross (x y : Cloud) (b : Fin 8) (p q : Fin 4096) : EReal :=
  ∑ k : Fin 3, x (ix3 b p k) * y (ix3 b q k)

/-- The same with every coordinate of the first point multiplied by −2 beforehand. -/
def crossNeg (x y : Cloud) (b : Fin 8) (p q : Fin 4096) : EReal :=
  ∑ k : Fin 3, (negTwo * x (ix3 b p k)) * y (ix3 b q k)

/-- Every coordinate of the batch is a real number (no infinity). -/
def IsReal (x : Cloud) : Prop := ∀ i, ∃ r : ℝ, x i = (r : EReal)

/-! ## The reference's reading -/

/-- The squared distance between point `n` of the first cloud and point `m` of the second. -/
def dist (x y : Cloud) (b : Fin 8) (n m : Fin 4096) : EReal :=
  (sq x b n + sq y b m) - two * cross x y b n m

/-- For each point of the first cloud, the least squared distance to the second cloud. -/
def nearest1 (x y : Cloud) (b : Fin 8) (n : Fin 4096) : EReal :=
  (Finset.univ : Finset (Fin 4096)).fold min inf (fun m => dist x y b n m)

/-- For each point of the second cloud, the least squared distance to the first cloud. -/
def nearest2 (x y : Cloud) (b : Fin 8) (m : Fin 4096) : EReal :=
  (Finset.univ : Finset (Fin 4096)).fold min inf (fun n => dist x y b n m)

/-! ## The kernel's reading -/

/-- Point `j` of run `r` of the 8 runs of 512 points a cloud is cut into. -/
def inRun (r : Fin 8) (j : Fin 512) : Fin 4096 := ⟨r.val * 512 + j.val, by omega⟩

/-- The second cloud's side in one piece: the minimum over the whole first cloud of the partial distance, the second
    point's own norm added afterwards. -/
def kNearest2 (x y : Cloud) (b : Fin 8) (m : Fin 4096) : EReal :=
  (Finset.univ : Finset (Fin 4096)).fold min inf (fun n => crossNeg x y b n m + sq x b n) + sq y b m

/-- The first cloud's side, one run of the second cloud: the minimum over that run's 512 points. -/
def runMin (x y : Cloud) (b : Fin 8) (n : Fin 4096) (r : Fin 8) : EReal :=
  (Finset.univ : Finset (Fin 512)).fold min inf (fun j => crossNeg y x b (inRun r j) n + sq y b (inRun r j))

/-- The running minimum after runs 0 … k, combined in order. -/
def runAcc (x y : Cloud) (b : Fin 8) (n : Fin 4096) : (k : ℕ) → k < 8 → EReal
  | 0, h => runMin x y b n ⟨0, h⟩
  | k + 1, h => min (runAcc x y b n k (Nat.lt_of_succ_lt h)) (runMin x y b n ⟨k + 1, h⟩)

/-- The first cloud's side: the running minimum after the last run, the first point's own norm added afterwards. -/
def kNearest1 (x y : Cloud) (b : Fin 8) (n : Fin 4096) : EReal :=
  runAcc x y b n 7 (by omega) + sq x b n

end Chamfer

end
-- ==== Proof.KHost.lean ====
/-
  The host lines around the call, read over the extended reals.

  Before the call the program packs each cloud twice. By rows: every coordinate multiplied by −2, and the point's squared
  norm (the sum of its three squared coordinates, started from zero) as a fourth coordinate. By columns: the three
  coordinates transposed, and the squared norms as a fourth row. This file reads each packed array element by element
  in terms of the cloud it was packed from.

  After the call the program reads each of the two result arrays as an [8,4096] array, takes its mean weighted by the
  matching weight array (the weighted sum over both axes divided by the sum of the weights), adds the two means and
  halves the sum. That is stated once as a function of the two result arrays and the two weight arrays, and the
  program's result buffer is shown to hold it.
-/
import proofs.«155851_g58342835749036_cont_9to1c4b_482_13_alg».proof.Proof.Gen.KernelIdeal.Frame
import proofs.«155851_g58342835749036_cont_9to1c4b_482_13_alg».proof.Proof.Spec
import Idealize.ShloMosaic.Lib.ValueIdx
import Idealize.ShloMosaic.Lib.Pipeline.Value
import Idealize.ShloMosaic.Lib.IdealHost
import Idealize.ShloMosaic.PureOps.Ideal.Laws
import Idealize.ShloMosaic.Lib.StableHlo.Run
import Mathlib.Algebra.BigOperators.Group.Finset.Basic

set_option maxRecDepth 16384

noncomputable section

open scoped BigOperators

namespace Cert.KernelIdeal.KHost

open Cert.KernelIdeal Cert.KernelIdeal.Gen Idealize.ShloMosaic Idealize.ShloMosaic.ValueIdx
open Idealize.ShloMosaic.TcCoe

/-! ## The four staged arrays as functions of a cloud -/

/-- The squared norms of a batch's points as a column: the coordinates' squares summed over the last axis from the
    zero literal, with a unit axis appended. -/
def sqCol (x : FVec Ideal S8x4096x3 .f32) : FVec Ideal S8x4096x1 .f32 :=
  broadcastInDim S8x4096x1 ![0, 1] bcast_S8x4096_S8x4096x1_0_1
    (Host.reduceAdd (mulf x x) (constant (F := Ideal) S_ .f32 0x00000000#32) reducesTo_S8x4096x3_S8x4096_d2 h_S_)

/-- Every coordinate multiplied by the literal −2. -/
def scaled (x : FVec Ideal S8x4096x3 .f32) : FVec Ideal S8x4096x3 .f32 :=
  mulf (broadcastInDim S8x4096x3 ![] bcast_S_S8x4096x3 (constant (F := Ideal) S_ .f32 0xC0000000#32)) x

/-- Points by rows: the three scaled coordinates, then the squared norm as a fourth. -/
def packA (x : FVec Ideal S8x4096x3 .f32) : FVec Ideal S8x4096x4 .f32 :=
  concatenate S8x4096x4 2 [⟨S8x4096x3, scaled x⟩, ⟨S8x4096x1, sqCol x⟩] concatenates_S8x4096x3_S8x4096x1_S8x4096x4_d2

/-- Points by columns: the three coordinates transposed, then the squared norms as a fourth row. -/
def packB (x : FVec Ideal S8x4096x3 .f32) : FVec Ideal S8x4x4096 .f32 :=
  concatenate S8x4x4096 1
    [⟨S8x3x4096, transpose S8x3x4096 [0, 2, 1] x transposes_S8x4096x3_S8x3x4096_0_2_1⟩,
     ⟨S8x1x4096, transpose S8x1x4096 [0, 2, 1] (sqCol x) transposes_S8x4096x1_S8x1x4096_0_2_1⟩]
    concatenates_S8x3x4096_S8x1x4096_S8x4x4096_d1

theorem reduces_d2 : S8x4096x3.Reduces [2] S8x4096 := by decide

/-- The column of squared norms at a point is that point's squared norm. -/
theorem sqCol_apply (x : FVec Ideal S8x4096x3 .f32) (b : Fin 8) (n : Fin 4096) :
    sqCol x (ix3 b n (0 : Fin 1)) = Chamfer.sq x b n := by
  unfold sqCol
  refine (broadcastInDim_apply (![0, 1] : Fin 2 → Fin 3) bcast_S8x4096_S8x4096x1_0_1 _ (ix3 b n (0 : Fin 1)) (ix2 b n)
    (fun a => match a with | ⟨0, _⟩ => rfl | ⟨1, _⟩ => rfl)).trans ?_
  refine (hostReduceAdd_apply (mulf x x) _ reducesTo_S8x4096x3_S8x4096_d2 h_S_ (ix2 b n)).trans ?_
  refine (Ideal.hostReduceAdd_single reducesTo_S8x4096x3_S8x4096_d2 reduces_d2 _ _ (ix2 b n)).trans ?_
  unfold Chamfer.sq Chamfer.zero
  refine congrArg₂ (· + ·) rfl (Finset.sum_congr rfl fun k _ => ?_)
  have e : reduces_d2.lift (ix2 b n) k = ix3 b n k := by
    funext a; match a with | ⟨0, _⟩ => rfl | ⟨1, _⟩ => rfl | ⟨2, _⟩ => rfl
  exact congrArg₂ (· * ·) (congrArg x e) (congrArg x e)

/-- A scaled coordinate is −2 times the coordinate. -/
theorem scaled_apply (x : FVec Ideal S8x4096x3 .f32) (i : S8x4096x3.Idx) : scaled x i = Chamfer.negTwo * x i := by
  unfold scaled Chamfer.negTwo
  show broadcastInDim S8x4096x3 ![] bcast_S_S8x4096x3 (constant (F := Ideal) S_ .f32 0xC0000000#32) i * x i = _
  rw [broadcastInDim_scalar_apply]
  rfl

theorem packA_lo (x : FVec Ideal S8x4096x3 .f32) (b : Fin 8) (n : Fin 4096) (k : Fin 3) :
    packA x (ix3 b n k.castSucc) = Chamfer.negTwo * x (ix3 b n k) := by
  unfold packA
  refine (concatenate_pair_apply_left (2 : Fin 3) (scaled x) (sqCol x) concatenates_S8x4096x3_S8x4096x1_S8x4096x4_d2
    (ix3 b n k.castSucc) rfl (ix3 b n k) (fun a => match a with | ⟨0, _⟩ => rfl | ⟨1, _⟩ => rfl | ⟨2, _⟩ => rfl)).trans ?_
  exact scaled_apply x _

theorem packA_hi (x : FVec Ideal S8x4096x3 .f32) (b : Fin 8) (n : Fin 4096) :
    packA x (ix3 b n (3 : Fin 4)) = Chamfer.sq x b n := by
  unfold packA
  refine (concatenate_pair_apply_right (2 : Fin 3) (scaled x) (sqCol x) concatenates_S8x4096x3_S8x4096x1_S8x4096x4_d2
    (ix3 b n (3 : Fin 4)) rfl rfl (ix3 b n (0 : Fin 1))
    (fun a ha => match a, ha with | ⟨0, _⟩, _ => rfl | ⟨1, _⟩, _ => rfl | ⟨2, _⟩, ha => absurd rfl ha) rfl).trans ?_
  exact sqCol_apply x b n

theorem packB_lo (x : FVec Ideal S8x4096x3 .f32) (b : Fin 8) (k : Fin 3) (q : Fin 4096) :
    packB x (ix3 b k.castSucc q) = x (ix3 b q k) := by
  unfold packB
  refine (concatenate_pair_apply_left (1 : Fin 3) (transpose S8x3x4096 [0, 2, 1] x transposes_S8x4096x3_S8x3x4096_0_2_1)
    (transpose S8x1x4096 [0, 2, 1] (sqCol x) transposes_S8x4096x1_S8x1x4096_0_2_1) concatenates_S8x3x4096_S8x1x4096_S8x4x4096_d1
    (ix3 b k.castSucc q) rfl (ix3 b k q) (fun a => match a with | ⟨0, _⟩ => rfl | ⟨1, _⟩ => rfl | ⟨2, _⟩ => rfl)).trans ?_
  exact transpose_apply [0, 2, 1] x transposes_S8x4096x3_S8x3x4096_0_2_1 (ix3 b k q) (ix3 b q k)
    (fun a => match a with | ⟨0, _⟩ => rfl | ⟨1, _⟩ => rfl | ⟨2, _⟩ => rfl)

theorem packB_hi (x : FVec Ideal S8x4096x3 .f32) (b : Fin 8) (q : Fin 4096) :
    packB x (ix3 b (3 : Fin 4) q) = Chamfer.sq x b q := by
  unfold packB
  refine (concatenate_pair_apply_right (1 : Fin 3) (transpose S8x3x4096 [0, 2, 1] x transposes_S8x4096x3_S8x3x4096_0_2_1)
    (transpose S8x1x4096 [0, 2, 1] (sqCol x) transposes_S8x4096x1_S8x1x4096_0_2_1) concatenates_S8x3x4096_S8x1x4096_S8x4x4096_d1
    (ix3 b (3 : Fin 4) q) rfl rfl (ix3 b (0 : Fin 1) q)
    (fun a ha => match a, ha with | ⟨0, _⟩, _ => rfl | ⟨1, _⟩, ha => absurd rfl ha | ⟨2, _⟩, _ => rfl) rfl).trans ?_
  refine (transpose_apply [0, 2, 1] (sqCol x) transposes_S8x4096x1_S8x1x4096_0_2_1 (ix3 b (0 : Fin 1) q) (ix3 b q (0 : Fin 1))
    (fun a => match a with | ⟨0, _⟩ => rfl | ⟨1, _⟩ => rfl | ⟨2, _⟩ => rfl)).trans ?_
  exact sqCol_apply x b q

/-! ## The staged arrays as the call finds them -/

variable (m : (ℓ : Loc nD τ sig) → Buf (Elt Ideal) ℓ)

/-- The first cloud as launched. -/
abbrev X1 (c : Dev nD) : Chamfer.Cloud := m ((c : Thread nD τ).loc main_arg0)
/-- The second cloud as launched. -/
abbrev X2 (c : Dev nD) : Chamfer.Cloud := m ((c : Thread nD τ).loc main_arg1)

theorem V_v8 (c : Dev nD) : (V m c main_call0_v8 : S8x4096x4.Idx → EReal) = packA (X1 m c) := by
  show StableHlo.after hostOps0 (fun b => m (c, b)) (Proc.devRef .tc main_call0_v8) = _
  after_results
  rfl

theorem V_v11 (c : Dev nD) : (V m c main_call0_v11 : S8x4096x4.Idx → EReal) = packA (X2 m c) := by
  show StableHlo.after hostOps0 (fun b => m (c, b)) (Proc.devRef .tc main_call0_v11) = _
  after_results
  rfl

theorem V_v14 (c : Dev nD) : (V m c main_call0_v14 : S8x4x4096.Idx → EReal) = packB (X2 m c) := by
  show StableHlo.after hostOps0 (fun b => m (c, b)) (Proc.devRef .tc main_call0_v14) = _
  after_results
  rfl

theorem V_v17 (c : Dev nD) : (V m c main_call0_v17 : S8x4x4096.Idx → EReal) = packB (X1 m c) := by
  show StableHlo.after hostOps0 (fun b => m (c, b)) (Proc.devRef .tc main_call0_v17) = _
  after_results
  rfl

theorem v8_lo (c : Dev nD) (b : Fin 8) (n : Fin 4096) (k : Fin 3) :
    V m c main_call0_v8 (ix3 b n k.castSucc) = Chamfer.negTwo * X1 m c (ix3 b n k) :=
  (congrFun (V_v8 m c) _).trans (packA_lo (X1 m c) b n k)

theorem v8_hi (c : Dev nD) (b : Fin 8) (n : Fin 4096) :
    V m c main_call0_v8 (ix3 b n (3 : Fin 4)) = Chamfer.sq (X1 m c) b n :=
  (congrFun (V_v8 m c) _).trans (packA_hi (X1 m c) b n)

theorem v11_lo (c : Dev nD) (b : Fin 8) (n : Fin 4096) (k : Fin 3) :
    V m c main_call0_v11 (ix3 b n k.castSucc) = Chamfer.negTwo * X2 m c (ix3 b n k) :=
  (congrFun (V_v11 m c) _).trans (packA_lo (X2 m c) b n k)

theorem v11_hi (c : Dev nD) (b : Fin 8) (n : Fin 4096) :
    V m c main_call0_v11 (ix3 b n (3 : Fin 4)) = Chamfer.sq (X2 m c) b n :=
  (congrFun (V_v11 m c) _).trans (packA_hi (X2 m c) b n)

theorem v14_lo (c : Dev nD) (b : Fin 8) (k : Fin 3) (q : Fin 4096) :
    V m c main_call0_v14 (ix3 b k.castSucc q) = X2 m c (ix3 b q k) :=
  (congrFun (V_v14 m c) _).trans (packB_lo (X2 m c) b k q)

theorem v14_hi (c : Dev nD) (b : Fin 8) (q : Fin 4096) :
    V m c main_call0_v14 (ix3 b (3 : Fin 4) q) = Chamfer.sq (X2 m c) b q :=
  (congrFun (V_v14 m c) _).trans (packB_hi (X2 m c) b q)

theorem v17_lo (c : Dev nD) (b : Fin 8) (k : Fin 3) (q : Fin 4096) :
    V m c main_call0_v17 (ix3 b k.castSucc q) = X1 m c (ix3 b q k) :=
  (congrFun (V_v17 m c) _).trans (packB_lo (X1 m c) b k q)

theorem v17_hi (c : Dev nD) (b : Fin 8) (q : Fin 4096) :
    V m c main_call0_v17 (ix3 b (3 : Fin 4) q) = Chamfer.sq (X1 m c) b q :=
  (congrFun (V_v17 m c) _).trans (packB_hi (X1 m c) b q)

/-! ## The lines after the call -/

/-- The 17 host lines after the call as one function of the call's two result arrays and the two weight arrays: each
    result read as an [8,4096] array, multiplied by its weights and summed over both axes from the zero literal, divided
    by the sum of the weights; the two quotients added and divided by the literal 2. -/
def tail (r1 r2 : FVec Ideal S8x1x4096 .f32) (w1 w2 : FVec Ideal S8x4096 .f32) : FVec Ideal S_ .f32 :=
  Host.divf (F := Ideal)
    (addf
      (Host.divf (F := Ideal)
        (Host.reduceAdd (F := Ideal) (mulf (shapeCast S8x4096 r1 shapeCasts_S8x1x4096_S8x4096) w1)
          (constant (F := Ideal) S_ .f32 0x00000000#32) reducesTo_S8x4096_S_d0_1 h_S_)
        (Host.reduceAdd (F := Ideal) w1 (constant (F := Ideal) S_ .f32 0x00000000#32) reducesTo_S8x4096_S_d0_1 h_S_))
      (Host.divf (F := Ideal)
        (Host.reduceAdd (F := Ideal) (mulf (shapeCast S8x4096 r2 shapeCasts_S8x1x4096_S8x4096) w2)
          (constant (F := Ideal) S_ .f32 0x00000000#32) reducesTo_S8x4096_S_d0_1 h_S_)
        (Host.reduceAdd (F := Ideal) w2 (constant (F := Ideal) S_ .f32 0x00000000#32) reducesTo_S8x4096_S_d0_1 h_S_)))
    (constant (F := Ideal) S_ .f32 0x40000000#32)

/-- A result array read as an [8,4096] array holds at (b, n) what it held at (b, 0, n). -/
theorem reshape_apply (r : FVec Ideal S8x1x4096 .f32) (b : Fin 8) (n : Fin 4096) :
    shapeCast S8x4096 r shapeCasts_S8x1x4096_S8x4096 (ix2 b n) = r (ix3 b (0 : Fin 1) n) := by
  refine shapeCast_apply r shapeCasts_S8x1x4096_S8x4096 (ix2 b n) (ix3 b (0 : Fin 1) n) ?_
  rw [Shape.rowMajor_val_three, Shape.rowMajor_val_two]
  show (b.val * 1 + 0) * 4096 + n.val = b.val * 4096 + n.val
  omega

/-- The lines after the call, from ANY contents of the buffers: the result buffer ends at the tail of what the two
    result arrays and the two weight arrays held. -/
theorem tail_after (W : Valuation τ sig (Elt Ideal)) :
    StableHlo.after hostOps1 W (Proc.devRef .tc main_v0)
      = tail (W (Proc.devRef .tc main_call0_v18_0)) (W (Proc.devRef .tc main_call0_v18_1))
          (W (Proc.devRef .tc main_arg2)) (W (Proc.devRef .tc main_arg3)) := by
  after_results
  rfl

/-- What the program's result buffer holds after the lines after the call, for any proof data of the call: the tail
    of the two result arrays as the call left them and the two weight arrays as launched. -/
theorem result_eq (dats : (p : Fin 1) → (c : Dev nD) → Pipeline.Dat τ (Elt Ideal) Unit ℕ (UR sig nD τ) ℕ (cfgs p) c) (c : Dev nD) :
    Pipeline.afterTail₀ cfgs dats 0 (V0 m) [hostOps1] c main_v0
      = tail ((dats 0 c).arrAt 4 cfg0.N) ((dats 0 c).arrAt 5 cfg0.N) (m ((c : Thread nD τ).loc main_arg2)) (m ((c : Thread nD τ).loc main_arg3)) := by
  unfold Pipeline.afterTail₀
  refine (tail_after _).trans ?_
  have e4 := Pipeline.withArrays_arr spec0 launch0.win.arr_inj c (V0 m c) (fun w => (dats 0 c).arrAt w (cfgs 0).N) 4
  have e5 := Pipeline.withArrays_arr spec0 launch0.win.arr_inj c (V0 m c) (fun w => (dats 0 c).arrAt w (cfgs 0).N) 5
  have e2 := (Pipeline.withArrays_of_ne spec0 c (V0 m c) (fun w => (dats 0 c).arrAt w (cfgs 0).N) main_arg2
    (by exact (by decide : ∀ w, Pipeline.arrRef spec0 w ≠ main_arg2))).trans (V_main_arg2 m c)
  have e3 := (Pipeline.withArrays_of_ne spec0 c (V0 m c) (fun w => (dats 0 c).arrAt w (cfgs 0).N) main_arg3
    (by exact (by decide : ∀ w, Pipeline.arrRef spec0 w ≠ main_arg3))).trans (V_main_arg3 m c)
  exact congr (congr (congr (congrArg tail e4) e5) e2) e3

end Cert.KernelIdeal.KHost

end
-- ==== Proof.LibMinAxis.lean ====
/-
  Two readings a value proof over the extended reals needs and the library does not state.

  A minimum reduction over ONE axis of a vector of any rank, read at a result index, is the fold of `min`, from the
  accumulator's value, over that axis's coordinates (the maximum's analogue is in the library). And a vector with two
  leading unit axes, [1, 1, a], cast to [a] or back, keeps each entry: (0, 0, i) ↔ i.
-/
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Idealize.ShloMosaic.MinAxis

open Idealize.ShloMosaic Idealize.ShloMosaic.ValueIdx

/-! ## A minimum over one axis -/

/-- A minimum reduction over ONE axis, over the extended reals: the fold of `min`, from the accumulator's value, over that
    axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-! ## Two leading unit axes added to or dropped from a vector -/

section Layout
variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    omega)

/-- An `[a]` array cast to `[1, 1, a]` reads, at `(u, w, i)`, the operand at `i`. -/
theorem shapeCast_a_11a_apply {a : ℕ} (x : (⟨1, ![a]⟩ : Shape).Idx → α)
    (h : (⟨1, ![a]⟩ : Shape).ShapeCasts ⟨3, ![1, 1, a]⟩) (u w : Fin 1) (i : Fin a) :
    shapeCast ⟨3, ![1, 1, a]⟩ x h (ix3 u w i) = x (ix1 i) :=
  shapeCast_apply x h _ _ (by
    have hu : u.val = 0 := by omega
    have hw : w.val = 0 := by omega
    rw [Shape.rowMajor_val_three, Shape.rowMajor_val_one]
    show i.val = (u.val * 1 + w.val) * a + i.val
    rw [hu, hw]; omega)

end Layout

end Idealize.ShloMosaic.MinAxis

end
-- ==== Proof.Payload.lean ====
/-
  The kernel body's arithmetic, element by element, over the extended reals.

  Each value the body stores is a chain of re-shapings (a unit axis added or dropped), unit-stride cuts of the rows or
  columns of a matrix, one product of a `[m, 3]` matrix with a `[3, n]` matrix started from zero, one column repeated
  along the rows, sums, and a minimum over the rows started from +∞. Read at one index, every re-shaping and cut names
  one entry of its operand, the product is a sum of three products, and the minimum is a fold of `min` over the rows.
  This file proves those readings: for the second cloud's side the minimum over all 4096 points of the first cloud of
  (inner product with the first three coordinates) + (the fourth coordinate), the point's own fourth coordinate added
  afterwards; for the first cloud's side the same minimum over one run of 512 points, its combination with the value
  kept from the runs before, and the fourth coordinate added at the end.
-/
import proofs.«155851_g58342835749036_cont_9to1c4b_482_13_alg».proof.Proof.Gen.KernelIdeal.Skeleton
import proofs.«155851_g58342835749036_cont_9to1c4b_482_13_alg».proof.Proof.Spec
import proofs.«155851_g58342835749036_cont_9to1c4b_482_13_alg».proof.Proof.LibMinAxis
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

open scoped BigOperators

namespace Cert.KernelIdeal.Payload

open Cert.KernelIdeal Cert.KernelIdeal.Gen Idealize.ShloMosaic Idealize.ShloMosaic.ValueIdx Idealize.ShloMosaic.MinAxis

/-! ## The two products read at an index -/

section Products

theorem lhs5_0 (j : S512x4096.Idx) (q : dot_S512x3_S3x4096_S512x4096_1_0_0_1_n_n.contr.Idx) :
    (dot_S512x3_S3x4096_S512x4096_1_0_0_1_n_n.lhsIdx j q 0).val = (j 0).val := by
  unfold DotDims.lhsIdx
  rw [dif_neg (show ¬(0 : Fin S512x3.rank) ∈ dot_S512x3_S3x4096_S512x4096_1_0_0_1_n_n.lhsBatch by decide), dif_pos (show (0 : Fin S512x3.rank) ∈ dot_S512x3_S3x4096_S512x4096_1_0_0_1_n_n.lhsNonContracting by decide)]
  rfl
theorem lhs5_1 (j : S512x4096.Idx) (q : dot_S512x3_S3x4096_S512x4096_1_0_0_1_n_n.contr.Idx) :
    (dot_S512x3_S3x4096_S512x4096_1_0_0_1_n_n.lhsIdx j q 1).val = (q ⟨0, by decide⟩).val :=
  dot_S512x3_S3x4096_S512x4096_1_0_0_1_n_n.lhsIdx_val_of_single rfl j q
theorem rhs5_0 (j : S512x4096.Idx) (q : dot_S512x3_S3x4096_S512x4096_1_0_0_1_n_n.contr.Idx) :
    (dot_S512x3_S3x4096_S512x4096_1_0_0_1_n_n.rhsIdx j q 0).val = (q ⟨0, by decide⟩).val :=
  dot_S512x3_S3x4096_S512x4096_1_0_0_1_n_n.rhsIdx_val_of_single rfl j q
theorem rhs5_1 (j : S512x4096.Idx) (q : dot_S512x3_S3x4096_S512x4096_1_0_0_1_n_n.contr.Idx) :
    (dot_S512x3_S3x4096_S512x4096_1_0_0_1_n_n.rhsIdx j q 1).val = (j 1).val := by
  unfold DotDims.rhsIdx
  rw [dif_neg (show ¬(1 : Fin S3x4096.rank) ∈ dot_S512x3_S3x4096_S512x4096_1_0_0_1_n_n.rhsBatch by decide), dif_pos (show (1 : Fin S3x4096.rank) ∈ dot_S512x3_S3x4096_S512x4096_1_0_0_1_n_n.rhsNonContracting by decide)]
  rfl

/-- The `[512, 3] × [3, 4096]` product into the zero accumulator, at `(j, i)`: the sum over the three contracted
    coordinates of the operands' products. -/
theorem matmul5_apply (A : FVec Ideal S512x3 .f32) (B : FVec Ideal S3x4096 .f32) (j : Fin 512) (i : Fin 4096) :
    matmul dot_S512x3_S3x4096_S512x4096_1_0_0_1_n_n none A B (constant (F := Ideal) S512x4096 .f32 0x00000000#32) (ix2 j i)
      = ∑ k : Fin 3, A (ix2 j k) * B (ix2 k i) := by
  simp only [matmul]
  rw [Ideal.matmul_constant_zero_apply, ← Equiv.sum_comp (contrEquiv1 dot_S512x3_S3x4096_S512x4096_1_0_0_1_n_n 3 rfl rfl).symm]
  refine Finset.sum_congr rfl fun k _ => ?_
  have hk := contrEquiv1_symm_val dot_S512x3_S3x4096_S512x4096_1_0_0_1_n_n 3 rfl rfl k
  have el : dot_S512x3_S3x4096_S512x4096_1_0_0_1_n_n.lhsIdx (ix2 j i) ((contrEquiv1 dot_S512x3_S3x4096_S512x4096_1_0_0_1_n_n 3 rfl rfl).symm k) = ix2 j k := funext fun a => Fin.ext (by
    match a with
    | ⟨0, _⟩ => exact lhs5_0 _ _
    | ⟨1, _⟩ => exact (lhs5_1 _ _).trans hk)
  have er : dot_S512x3_S3x4096_S512x4096_1_0_0_1_n_n.rhsIdx (ix2 j i) ((contrEquiv1 dot_S512x3_S3x4096_S512x4096_1_0_0_1_n_n 3 rfl rfl).symm k) = ix2 k i := funext fun a => Fin.ext (by
    match a with
    | ⟨0, _⟩ => exact (rhs5_0 _ _).trans hk
    | ⟨1, _⟩ => exact rhs5_1 _ _)
  rw [el, er]

theorem lhs4_0 (j : S4096x512.Idx) (q : dot_S4096x3_S3x512_S4096x512_1_0_0_1_n_n.contr.Idx) :
    (dot_S4096x3_S3x512_S4096x512_1_0_0_1_n_n.lhsIdx j q 0).val = (j 0).val := by
  unfold DotDims.lhsIdx
  rw [dif_neg (show ¬(0 : Fin S4096x3.rank) ∈ dot_S4096x3_S3x512_S4096x512_1_0_0_1_n_n.lhsBatch by decide), dif_pos (show (0 : Fin S4096x3.rank) ∈ dot_S4096x3_S3x512_S4096x512_1_0_0_1_n_n.lhsNonContracting by decide)]
  rfl
theorem lhs4_1 (j : S4096x512.Idx) (q : dot_S4096x3_S3x512_S4096x512_1_0_0_1_n_n.contr.Idx) :
    (dot_S4096x3_S3x512_S4096x512_1_0_0_1_n_n.lhsIdx j q 1).val = (q ⟨0, by decide⟩).val :=
  dot_S4096x3_S3x512_S4096x512_1_0_0_1_n_n.lhsIdx_val_of_single rfl j q
theorem rhs4_0 (j : S4096x512.Idx) (q : dot_S4096x3_S3x512_S4096x512_1_0_0_1_n_n.contr.Idx) :
    (dot_S4096x3_S3x512_S4096x512_1_0_0_1_n_n.rhsIdx j q 0).val = (q ⟨0, by decide⟩).val :=
  dot_S4096x3_S3x512_S4096x512_1_0_0_1_n_n.rhsIdx_val_of_single rfl j q
theorem rhs4_1 (j : S4096x512.Idx) (q : dot_S4096x3_S3x512_S4096x512_1_0_0_1_n_n.contr.Idx) :
    (dot_S4096x3_S3x512_S4096x512_1_0_0_1_n_n.rhsIdx j q 1).val = (j 1).val := by
  unfold DotDims.rhsIdx
  rw [dif_neg (show ¬(1 : Fin S3x512.rank) ∈ dot_S4096x3_S3x512_S4096x512_1_0_0_1_n_n.rhsBatch by decide), dif_pos (show (1 : Fin S3x512.rank) ∈ dot_S4096x3_S3x512_S4096x512_1_0_0_1_n_n.rhsNonContracting by decide)]
  rfl

/-- The `[4096, 3] × [3, 512]` product into the zero accumulator, at `(j, i)`: the sum over the three contracted
    coordinates of the operands' products. -/
theorem matmul4_apply (A : FVec Ideal S4096x3 .f32) (B : FVec Ideal S3x512 .f32) (j : Fin 4096) (i : Fin 512) :
    matmul dot_S4096x3_S3x512_S4096x512_1_0_0_1_n_n none A B (constant (F := Ideal) S4096x512 .f32 0x00000000#32) (ix2 j i)
      = ∑ k : Fin 3, A (ix2 j k) * B (ix2 k i) := by
  simp only [matmul]
  rw [Ideal.matmul_constant_zero_apply, ← Equiv.sum_comp (contrEquiv1 dot_S4096x3_S3x512_S4096x512_1_0_0_1_n_n 3 rfl rfl).symm]
  refine Finset.sum_congr rfl fun k _ => ?_
  have hk := contrEquiv1_symm_val dot_S4096x3_S3x512_S4096x512_1_0_0_1_n_n 3 rfl rfl k
  have el : dot_S4096x3_S3x512_S4096x512_1_0_0_1_n_n.lhsIdx (ix2 j i) ((contrEquiv1 dot_S4096x3_S3x512_S4096x512_1_0_0_1_n_n 3 rfl rfl).symm k) = ix2 j k := funext fun a => Fin.ext (by
    match a with
    | ⟨0, _⟩ => exact lhs4_0 _ _
    | ⟨1, _⟩ => exact (lhs4_1 _ _).trans hk)
  have er : dot_S4096x3_S3x512_S4096x512_1_0_0_1_n_n.rhsIdx (ix2 j i) ((contrEquiv1 dot_S4096x3_S3x512_S4096x512_1_0_0_1_n_n 3 rfl rfl).symm k) = ix2 k i := funext fun a => Fin.ext (by
    match a with
    | ⟨0, _⟩ => exact (rhs4_0 _ _).trans hk
    | ⟨1, _⟩ => exact rhs4_1 _ _)
  rw [el, er]

end Products

/-! ## A column broadcast along the rows, and a minimum over the rows -/

section ColumnAndRows
variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The minimum over the rows of an `[m, n]` array from `+∞`, at column `i`: the fold of `min` over the rows of the
    entries of that column. -/
theorem min_rows_apply {m n : ℕ} (src : FVec Ideal ⟨2, ![m, n]⟩ .f32) (h : Shape.Reduces ⟨2, ![m, n]⟩ [0] ⟨1, ![n]⟩)
    (hφ : FKind.Formats .f32) (hacc : (0x7F800000#32 : BitVec 32) = 0x7F800000#32) (i : Fin n) :
    multiReduction .minimumf [0] ⟨1, ![n]⟩ src 0x7F800000#32 h hφ hacc (ix1 i)
      = (Finset.univ : Finset (Fin m)).fold min Chamfer.inf (fun j => src (ix2 j i)) := by
  refine (multiReduction_minimumf_single src 0x7F800000#32 h hφ hacc (ix1 i)).trans ?_
  refine Finset.fold_congr fun j _ => ?_
  exact congrArg src (funext fun a => Fin.ext (by match a with | ⟨0, _⟩ => rfl | ⟨1, _⟩ => rfl))

end ColumnAndRows

/-! ## The small payloads -/

theorem pay3_apply (v6 : Vec Ideal S1x4x4096 .f32) (k : Fin 4) (i : Fin 4096) :
    k0_pay3 (F := Ideal) v6 (ix2 k i) = v6 (ix3 0 k i) := by
  unfold k0_pay3
  exact shapeCast_1ab_ab_apply v6 _ k i

theorem pay1_apply (v27 : FVec Ideal S4096 .f32) (v39 : Vec Ideal S1x1x4096 .f32) (i : Fin 4096) :
    k0_pay1 (F := Ideal) v27 v39 (ix3 0 0 i) = min (v39 (ix3 0 0 i)) (v27 (ix1 i)) := by
  unfold k0_pay1
  rw [shapeCast_a_11a_apply, minimumf_apply, shapeCast_11a_a_apply]

theorem pay2_apply (v7 : FVec Ideal S4x4096 .f32) (v27 : FVec Ideal S4096 .f32) (v39 : Vec Ideal S1x1x4096 .f32) (i : Fin 4096) :
    k0_pay2 (F := Ideal) v7 v27 v39 (ix3 0 0 i) = min (v39 (ix3 0 0 i)) (v27 (ix1 i)) + v7 (ix2 3 i) := by
  unfold k0_pay2
  rw [shapeCast_a_11a_apply, addf_apply, minimumf_apply, shapeCast_11a_a_apply, shapeCast_1a_a_apply,
    slice2_axis0_apply 3 v7 _ (0 : Fin 1) i (3 : Fin 4) rfl]

theorem pay6_apply (v4 : Vec Ideal S1x512x4 .f32) (v6 : Vec Ideal S1x4x4096 .f32) (i : Fin 4096) :
    k0_pay6 (F := Ideal) v4 v6 (ix3 0 0 i) = k0_pay5 (F := Ideal) v4 v6 (ix1 i) := by
  unfold k0_pay6
  exact shapeCast_a_11a_apply _ _ 0 0 i

/-! ## The running minimum's payload -/

theorem pay5_apply (v4 : Vec Ideal S1x512x4 .f32) (v6 : Vec Ideal S1x4x4096 .f32) (i : Fin 4096) :
    k0_pay5 (F := Ideal) v4 v6 (ix1 i)
      = (Finset.univ : Finset (Fin 512)).fold min Chamfer.inf
          (fun j => (∑ k : Fin 3, v4 (ix3 0 j k.castSucc) * v6 (ix3 0 k.castSucc i)) + v4 (ix3 0 j 3)) := by
  unfold k0_pay5
  refine (min_rows_apply _ _ _ _ i).trans ?_
  refine Finset.fold_congr fun j _ => ?_
  rw [addf_apply, matmul5_apply, broadcastTo_a1_ab_apply,
    slice2_axis1_apply 3 _ _ j (0 : Fin 1) (3 : Fin 4) rfl, shapeCast_1ab_ab_apply]
  refine congrArg (· + _) (Finset.sum_congr rfl fun k _ => ?_)
  rw [slice2_axis1_apply 0 _ _ j k k.castSucc (Nat.zero_add _).symm, shapeCast_1ab_ab_apply,
    slice2_axis0_apply 0 _ _ k i k.castSucc (Nat.zero_add _).symm, pay3_apply]

/-! ## The second cloud's side -/

theorem pay4_apply (v0 : Vec Ideal S1x4096x4 .f32) (v2 : Vec Ideal S1x4x512 .f32) (j : Fin 512) :
    k0_pay4 (F := Ideal) v0 v2 (ix3 0 0 j)
      = (Finset.univ : Finset (Fin 4096)).fold min Chamfer.inf
          (fun i => (∑ k : Fin 3, v0 (ix3 0 i k.castSucc) * v2 (ix3 0 k.castSucc j)) + v0 (ix3 0 i 3))
        + v2 (ix3 0 3 j) := by
  unfold k0_pay4
  refine (shapeCast_a_11a_apply _ _ 0 0 j).trans ?_
  refine (addf_apply _ _ _).trans ?_
  refine congrArg₂ (· + ·) ?_ ?_
  · refine (min_rows_apply _ _ _ _ j).trans ?_
    refine Finset.fold_congr fun i _ => ?_
    rw [addf_apply, matmul4_apply, broadcastTo_a1_ab_apply,
      slice2_axis1_apply 3 _ _ i (0 : Fin 1) (3 : Fin 4) rfl, shapeCast_1ab_ab_apply]
    refine congrArg (· + _) (Finset.sum_congr rfl fun k _ => ?_)
    rw [slice2_axis1_apply 0 _ _ i k k.castSucc (Nat.zero_add _).symm, shapeCast_1ab_ab_apply,
      slice2_axis0_apply 0 _ _ k j k.castSucc (Nat.zero_add _).symm, shapeCast_1ab_ab_apply]
  · rw [shapeCast_1a_a_apply, slice2_axis0_apply 3 _ _ (0 : Fin 1) j (3 : Fin 4) rfl, shapeCast_1ab_ab_apply]

end Cert.KernelIdeal.Payload

end
-- ==== Proof.KPoint.lean ====
/-
  One grid point of the kernel, one element of a result block, against the specification.

  A point's input blocks are pieces of four arrays the host lines before the call lay out from the two clouds; reading the
  body's arithmetic at an element and those arrays at an index turns each stored element into the specification's term:
  the second result's element is the kernel's reading of a nearest distance outright, the first result's is the running
  minimum over the runs so far, and after a cloud's last run that minimum plus the point's norm.
-/
import proofs.«155851_g58342835749036_cont_9to1c4b_482_13_alg».proof.Proof.Payload
import proofs.«155851_g58342835749036_cont_9to1c4b_482_13_alg».proof.Proof.KHost
import proofs.«155851_g58342835749036_cont_9to1c4b_482_13_alg».proof.Proof.Body
import proofs.«155851_g58342835749036_cont_9to1c4b_482_13_alg».proof.Proof.Spec
import Idealize.ShloMosaic.Lib.ValueIdx
import Idealize.ShloMosaic.Lib.Pipeline.Value

set_option maxRecDepth 16384

noncomputable section

namespace Cert.KernelIdeal.KPoint

open Cert.KernelIdeal Cert.KernelIdeal.Gen Cert.KernelIdeal.Body
open Idealize.ShloMosaic Idealize.ShloMosaic.TcCoe Idealize.ShloMosaic.ValueIdx Idealize.SL.Sem

variable (m : (ℓ : Loc nD τ sig) → Buf (Elt Ideal) ℓ)

/-- The two clouds as the program is given them. -/
abbrev X1 (c : Dev nD) : Chamfer.Cloud := m ((c : Thread nD τ).loc main_arg0)
abbrev X2 (c : Dev nD) : Chamfer.Cloud := m ((c : Thread nD τ).loc main_arg1)

/-- Grid point `t` works on cloud `t / 8` and on run `t % 8` of the second cloud. -/
def cloudOf (t : Fin cfg0.N) : Fin 8 := ⟨t.val / 8, by have := lt_of_lt_of_eq t.isLt (show cfg0.N = 64 from N_0); omega⟩
def runOf (t : Fin cfg0.N) : Fin 8 := ⟨t.val % 8, by omega⟩

/-! ## The blocks a point sees, read off the staged arrays -/

theorem hz3 : (![0, 0, 0] : Fin 3 → Nat) = fun _ => 0 := funext fun a => by fin_cases a <;> rfl

/-- The printed index maps over the grid: the cloud is the slow axis, the run the fast one; the first cloud's two arrays
    are taken whole per cloud, the second cloud's by run. -/
theorem idx_facts : ∀ t : Fin cfg0.N,
    (win0_0.index t (0 : Fin 3) = t.val / 8 ∧ win0_0.index t (1 : Fin 3) = 0 ∧ win0_0.index t (2 : Fin 3) = 0)
    ∧ (win0_1.index t (0 : Fin 3) = t.val / 8 ∧ win0_1.index t (1 : Fin 3) = 0 ∧ win0_1.index t (2 : Fin 3) = t.val % 8)
    ∧ (win0_2.index t (0 : Fin 3) = t.val / 8 ∧ win0_2.index t (1 : Fin 3) = t.val % 8 ∧ win0_2.index t (2 : Fin 3) = 0)
    ∧ (win0_3.index t (0 : Fin 3) = t.val / 8 ∧ win0_3.index t (1 : Fin 3) = 0 ∧ win0_3.index t (2 : Fin 3) = 0) :=
  (by decide +kernel : ∀ t : Fin grid0.N, _)

/-- The first cloud's rows: the whole cloud `t / 8`. -/
theorem blkA (c : Dev nD) (t : Fin cfg0.N) (i : Fin 4096) (k : Fin 4) :
    iblk m c 0 t (ix3 0 i k) = V m c main_call0_v8 (ix3 (cloudOf t) i k) := by
  show V m c main_call0_v8 (((cfg0.win 0).blk t).view.emb (ix3 0 i k)) = _
  refine congrArg _ (funext fun a => Fin.ext ?_)
  obtain ⟨⟨e0, e1, e2⟩, -, -, -⟩ := idx_facts t
  match a with
  | ⟨0, _⟩ => show win0_0.index t (0 : Fin 3) * 1 + 1 * 0 = t.val / 8; omega
  | ⟨1, _⟩ => show win0_0.index t (1 : Fin 3) * 4096 + 1 * i.val = i.val; omega
  | ⟨2, _⟩ => show win0_0.index t (2 : Fin 3) * 4 + 1 * k.val = k.val; omega

/-- The second cloud's columns: run `t % 8` of cloud `t / 8`. -/
theorem blkBt (c : Dev nD) (t : Fin cfg0.N) (k : Fin 4) (j : Fin 512) :
    iblk m c 1 t (ix3 0 k j) = V m c main_call0_v14 (ix3 (cloudOf t) k (Chamfer.inRun (runOf t) j)) := by
  show V m c main_call0_v14 (((cfg0.win 1).blk t).view.emb (ix3 0 k j)) = _
  refine congrArg _ (funext fun a => Fin.ext ?_)
  obtain ⟨-, ⟨e0, e1, e2⟩, -, -⟩ := idx_facts t
  match a with
  | ⟨0, _⟩ => show win0_1.index t (0 : Fin 3) * 1 + 1 * 0 = t.val / 8; omega
  | ⟨1, _⟩ => show win0_1.index t (1 : Fin 3) * 4 + 1 * k.val = k.val; omega
  | ⟨2, _⟩ => show win0_1.index t (2 : Fin 3) * 512 + 1 * j.val = t.val % 8 * 512 + j.val; omega

/-- The second cloud's rows: the same run. -/
theorem blkB2 (c : Dev nD) (t : Fin cfg0.N) (j : Fin 512) (k : Fin 4) :
    iblk m c 2 t (ix3 0 j k) = V m c main_call0_v11 (ix3 (cloudOf t) (Chamfer.inRun (runOf t) j) k) := by
  show V m c main_call0_v11 (((cfg0.win 2).blk t).view.emb (ix3 0 j k)) = _
  refine congrArg _ (funext fun a => Fin.ext ?_)
  obtain ⟨-, -, ⟨e0, e1, e2⟩, -⟩ := idx_facts t
  match a with
  | ⟨0, _⟩ => show win0_2.index t (0 : Fin 3) * 1 + 1 * 0 = t.val / 8; omega
  | ⟨1, _⟩ => show win0_2.index t (1 : Fin 3) * 512 + 1 * j.val = t.val % 8 * 512 + j.val; omega
  | ⟨2, _⟩ => show win0_2.index t (2 : Fin 3) * 4 + 1 * k.val = k.val; omega

/-- The first cloud's columns: the whole cloud. -/
theorem blkAt (c : Dev nD) (t : Fin cfg0.N) (k : Fin 4) (i : Fin 4096) :
    iblk m c 3 t (ix3 0 k i) = V m c main_call0_v17 (ix3 (cloudOf t) k i) := by
  show V m c main_call0_v17 (((cfg0.win 3).blk t).view.emb (ix3 0 k i)) = _
  refine congrArg _ (funext fun a => Fin.ext ?_)
  obtain ⟨-, -, -, ⟨e0, e1, e2⟩⟩ := idx_facts t
  match a with
  | ⟨0, _⟩ => show win0_3.index t (0 : Fin 3) * 1 + 1 * 0 = t.val / 8; omega
  | ⟨1, _⟩ => show win0_3.index t (1 : Fin 3) * 4 + 1 * k.val = k.val; omega
  | ⟨2, _⟩ => show win0_3.index t (2 : Fin 3) * 4096 + 1 * i.val = i.val; omega

/-! ## The result blocks as the body's arithmetic -/

theorem outD2_eq (x0 : Vec Ideal S1x4096x4 .f32) (x1 : Vec Ideal S1x4x512 .f32) : outD2 (F := Ideal) x0 x1 = k0_pay4 x0 x1 := by
  unfold outD2
  rw [View.canon_unit_zero hz3]
  simp only [View.ld_unit_zero (S := S1x4096x4) hz3, View.ld_unit_zero (S := S1x4x512) hz3]

theorem outFirst_eq (x2 : Vec Ideal S1x512x4 .f32) (x3 : Vec Ideal S1x4x4096 .f32) : outFirst (F := Ideal) x2 x3 = k0_pay6 x2 x3 := by
  unfold outFirst
  rw [View.canon_unit_zero hz3]
  simp only [View.ld_unit_zero (S := S1x512x4) hz3, View.ld_unit_zero (S := S1x4x4096) hz3]

theorem outMid_eq (x2 : Vec Ideal S1x512x4 .f32) (x3 : Vec Ideal S1x4x4096 .f32) (acc : Vec Ideal S1x1x4096 .f32) :
    outMid (F := Ideal) x2 x3 acc = k0_pay1 (k0_pay5 x2 x3) acc := by
  unfold outMid
  rw [View.canon_unit_zero hz3]
  simp only [View.ld_unit_zero (S := S1x512x4) hz3, View.ld_unit_zero (S := S1x4x4096) hz3, View.ld_unit_zero (S := S1x1x4096) hz3]

theorem outLast_eq (x2 : Vec Ideal S1x512x4 .f32) (x3 : Vec Ideal S1x4x4096 .f32) (acc : Vec Ideal S1x1x4096 .f32) :
    outLast (F := Ideal) x2 x3 acc = k0_pay2 (k0_pay3 x3) (k0_pay5 x2 x3) acc := by
  unfold outLast
  rw [View.canon_unit_zero hz3]
  simp only [View.ld_unit_zero (S := S1x512x4) hz3, View.ld_unit_zero (S := S1x4x4096) hz3, View.ld_unit_zero (S := S1x1x4096) hz3]

/-! ## One point, one element -/

/-- One run's partial minimum for point `i` of the first cloud: over the run's 512 points q of the second cloud, of
    −2⟨q, p_i⟩ + |q|². -/
theorem part_point (c : Dev nD) (t : Fin cfg0.N) (i : Fin 4096) :
    k0_pay5 (F := Ideal) (iblk m c 2 t) (iblk m c 3 t) (ix1 i)
      = Chamfer.runMin (X1 m c) (X2 m c) (cloudOf t) i (runOf t) := by
  rw [Payload.pay5_apply]
  unfold Chamfer.runMin
  refine congrArg (fun f => Finset.fold min Chamfer.inf f Finset.univ) (funext fun j => ?_)
  unfold Chamfer.crossNeg
  rw [blkB2 m c t j 3, KHost.v11_hi]
  refine congrArg (· + _) (Finset.sum_congr rfl fun k _ => ?_)
  rw [blkB2 m c t j k.castSucc, blkAt m c t k.castSucc i, KHost.v11_lo, KHost.v17_lo]

theorem d2_point (c : Dev nD) (t : Fin cfg0.N) (j : Fin 512) :
    outD2 (F := Ideal) (iblk m c 0 t) (iblk m c 1 t) (ix3 0 0 j)
      = Chamfer.kNearest2 (X1 m c) (X2 m c) (cloudOf t) (Chamfer.inRun (runOf t) j) := by
  rw [outD2_eq, Payload.pay4_apply]
  unfold Chamfer.kNearest2
  rw [blkBt m c t 3 j, KHost.v14_hi]
  refine congrArg (· + _) ?_
  refine congrArg (fun f => Finset.fold min Chamfer.inf f Finset.univ) (funext fun i => ?_)
  unfold Chamfer.crossNeg
  rw [blkA m c t i 3, KHost.v8_hi]
  refine congrArg (· + _) (Finset.sum_congr rfl fun k _ => ?_)
  rw [blkA m c t i k.castSucc, blkBt m c t k.castSucc j, KHost.v8_lo, KHost.v14_lo]

/-! ## The running minimum, run by run -/

theorem runAcc_first (x y : Chamfer.Cloud) (b : Fin 8) (n : Fin 4096) (k : ℕ) (hk : k < 8) (h0 : k = 0) :
    Chamfer.runAcc x y b n k hk = Chamfer.runMin x y b n ⟨k, hk⟩ := by subst h0; rfl

theorem runAcc_next (x y : Chamfer.Cloud) (b : Fin 8) (n : Fin 4096) (k k' : ℕ) (hk : k < 8) (hk' : k' < 8) (h : k = k' + 1) :
    Chamfer.runAcc x y b n k hk = min (Chamfer.runAcc x y b n k' hk') (Chamfer.runMin x y b n ⟨k, hk⟩) := by subst h; rfl

/-- Before a cloud's last run the first result's block holds, for point `i` of the first cloud, the running minimum over
    the runs so far. -/
theorem acc_point (c : Dev nD) (i : Fin 4096) : ∀ (n : ℕ) (hn : n < cfg0.N) (h7 : n % 8 < 7),
    accAt (F := Ideal) m c n hn (ix3 0 0 i)
      = Chamfer.runAcc (X1 m c) (X2 m c) (cloudOf ⟨n, hn⟩) i (n % 8) (by omega) := by
  intro n
  induction n with
  | zero =>
    intro hn h7
    rw [accAt_first m c ⟨0, hn⟩ rfl, outFirst_eq, Payload.pay6_apply, part_point,
      runAcc_first _ _ _ _ (0 % 8) (by omega) rfl]
    rfl
  | succ n ih =>
    intro hn h7
    by_cases h0 : (n + 1) % 8 = 0
    · rw [accAt_first m c ⟨n + 1, hn⟩ h0, outFirst_eq, Payload.pay6_apply, part_point,
        runAcc_first _ _ _ _ ((n + 1) % 8) (by omega) h0]
      rfl
    · have hlt : n < cfg0.N := Nat.lt_of_succ_lt hn
      have hprev : n % 8 < 7 := by omega
      have hcl : cloudOf ⟨n + 1, hn⟩ = cloudOf ⟨n, hlt⟩ := Fin.ext (by show (n + 1) / 8 = n / 8; omega)
      rw [accAt_mid m c ⟨n + 1, hn⟩ h0 (by dsimp only; omega), outMid_eq, Payload.pay1_apply, part_point]
      rw [runAcc_next _ _ _ _ ((n + 1) % 8) (n % 8) (by omega) (by omega) (by omega)]
      have e := ih hlt hprev
      rw [hcl]
      exact congrArg₂ min e rfl

theorem d1_point (c : Dev nD) (t : Fin cfg0.N) (h7 : t.val % 8 = 7) (i : Fin 4096) :
    accAt (F := Ideal) m c t.val t.isLt (ix3 0 0 i) = Chamfer.kNearest1 (X1 m c) (X2 m c) (cloudOf t) i := by
  have hN : t.val < 64 := lt_of_lt_of_eq t.isLt (show cfg0.N = 64 from N_0)
  have hlt : t.val - 1 < cfg0.N := Nat.lt_of_le_of_lt (Nat.sub_le _ _) t.isLt
  have hcl : cloudOf t = cloudOf ⟨t.val - 1, hlt⟩ := Fin.ext (by show t.val / 8 = (t.val - 1) / 8; omega)
  rw [accAt_last m c t h7, outLast_eq, Payload.pay2_apply, part_point, Payload.pay3_apply, blkAt m c t 3 i, KHost.v17_hi,
    acc_point m c i (t.val - 1) hlt (by omega)]
  unfold Chamfer.kNearest1
  rw [runAcc_next _ _ _ _ 7 6 (by omega) (by omega) rfl, hcl]
  refine congrArg (· + _) (congrArg₂ min ?_ ?_)
  · exact congrArg (fun k => Chamfer.runAcc (X1 m c) (X2 m c) (cloudOf ⟨t.val - 1, hlt⟩) i k.1 k.2)
      (Subtype.ext (by show (t.val - 1) % 8 = 6; omega) : (⟨(t.val - 1) % 8, by omega⟩ : {k : ℕ // k < 8}) = ⟨6, by omega⟩)
  · rw [← hcl]
    exact congrArg (Chamfer.runMin (X1 m c) (X2 m c) (cloudOf t) i) (Fin.ext (by show t.val % 8 = 7; exact h7))

end Cert.KernelIdeal.KPoint

end
-- ==== Proof.KArray.lean ====
/-
  From what each grid point writes back to what the two result arrays hold after the run.

  The grid is 8 clouds × 8 runs; point t works on cloud t / 8 and run t % 8. The first result's array [8, 1, 4096] is
  written back one whole cloud row at a time, after the cloud's last run; the second result's array [8, 1, 4096] is
  written back 512 entries at a time, at every point, the entries of the point's run. A block's coordinate in its array
  is the block index × the block size + the coordinate inside the block. Each write-back is the block of ONE whole-array
  function (`G1`, `G2`: the kernel's reading of the two nearest-point distances), and the blocks written back cover
  each array, so each array ends holding that function.
-/
import proofs.«155851_g58342835749036_cont_9to1c4b_482_13_alg».proof.Proof.Body
import proofs.«155851_g58342835749036_cont_9to1c4b_482_13_alg».proof.Proof.KPoint
import proofs.«155851_g58342835749036_cont_9to1c4b_482_13_alg».proof.Proof.Spec
import Idealize.ShloMosaic.Lib.Pipeline.Value
import Idealize.ShloMosaic.Lib.ValueIdx

set_option maxRecDepth 16384

noncomputable section

namespace Cert.KernelIdeal.KArray

open Cert.KernelIdeal Cert.KernelIdeal.Gen Cert.KernelIdeal.Body Cert.KernelIdeal.KPoint
open Idealize.ShloMosaic Idealize.ShloMosaic.ValueIdx

variable (m : (ℓ : Loc nD τ sig) → Buf (Elt Ideal) ℓ)

/-- The two result arrays as whole-array functions of the two clouds. -/
def G1 (c : Dev nD) : S8x1x4096.Idx → EReal := fun i => Chamfer.kNearest1 (X1 m c) (X2 m c) (i 0) (i 2)
def G2 (c : Dev nD) : S8x1x4096.Idx → EReal := fun i => Chamfer.kNearest2 (X1 m c) (X2 m c) (i 0) (i 2)

theorem idx_facts : ∀ t : Fin cfg0.N, win0_4.index t (0 : Fin 3) = t.val / 8 ∧ win0_4.index t (1 : Fin 3) = 0
    ∧ win0_4.index t (2 : Fin 3) = 0 ∧ win0_5.index t (0 : Fin 3) = t.val / 8 ∧ win0_5.index t (1 : Fin 3) = 0
    ∧ win0_5.index t (2 : Fin 3) = t.val % 8 :=
  (by decide +kernel : ∀ t : Fin grid0.N, _)

/-! ## What each write-back is -/

/-- What a cloud's last run writes back to the first result's array is its block of `G1`: the point's cloud is the
    block's first coordinate, and the block spans the whole third axis. -/
theorem flushed1_eq (c : Dev nD) (t : Fin cfg0.N) (hf : (cfg0.win 4).flush t = true) :
    (dats m 0 c).flushed 4 t = ((cfg0.win 4).blk t).view.read (Elt Ideal) (G1 m c) := by
  show (cfg0.win 4).cut (grid0.coords t) ((dats m 0 c).after 4 t) = _
  rw [after_4]
  obtain ⟨e0, e1, e2, -, -, -⟩ := idx_facts t
  funext (y : S1x1x4096.Idx)
  show accAt m c t.val t.isLt y = G1 m c (((cfg0.win 4).blk t).view.emb y)
  obtain ⟨i, rfl⟩ : ∃ i : Fin 4096, y = ix3 0 0 i :=
    ⟨y 2, funext fun a => by
      match a with
      | ⟨0, _⟩ => exact Subsingleton.elim (α := Fin 1) _ _
      | ⟨1, _⟩ => exact Subsingleton.elim (α := Fin 1) _ _
      | ⟨2, _⟩ => rfl⟩
  rw [d1_point m c t ((flush0_4 t).mp hf)]
  unfold G1
  have h0 : ((cfg0.win 4).blk t).view.emb (ix3 0 0 i) 0 = cloudOf t := by
    apply Fin.ext
    show win0_4.index t (0 : Fin 3) * 1 + 1 * 0 = t.val / 8
    omega
  have h2 : ((cfg0.win 4).blk t).view.emb (ix3 0 0 i) 2 = i := by
    apply Fin.ext
    show win0_4.index t (2 : Fin 3) * 4096 + 1 * i.val = i.val
    omega
  rw [h0, h2]

/-- What a point writes back to the second result's array is its block of `G2`: the point's cloud is the block's first
    coordinate, and point `j` of the point's run is the block's third coordinate, run × 512 + j. -/
theorem flushed2_eq (c : Dev nD) (t : Fin cfg0.N) :
    (dats m 0 c).flushed 5 t = ((cfg0.win 5).blk t).view.read (Elt Ideal) (G2 m c) := by
  show (cfg0.win 5).cut (grid0.coords t) ((dats m 0 c).after 5 t) = _
  rw [after_5]
  obtain ⟨-, -, -, e0, e1, e2⟩ := idx_facts t
  funext (y : S1x1x512.Idx)
  show outD2 (iblk m c 0 t) (iblk m c 1 t) y = G2 m c (((cfg0.win 5).blk t).view.emb y)
  obtain ⟨j, rfl⟩ : ∃ j : Fin 512, y = ix3 0 0 j :=
    ⟨y 2, funext fun a => by
      match a with
      | ⟨0, _⟩ => exact Subsingleton.elim (α := Fin 1) _ _
      | ⟨1, _⟩ => exact Subsingleton.elim (α := Fin 1) _ _
      | ⟨2, _⟩ => rfl⟩
  rw [d2_point]
  unfold G2
  have h0 : ((cfg0.win 5).blk t).view.emb (ix3 0 0 j) 0 = cloudOf t := by
    apply Fin.ext
    show win0_5.index t (0 : Fin 3) * 1 + 1 * 0 = t.val / 8
    omega
  have h2 : ((cfg0.win 5).blk t).view.emb (ix3 0 0 j) 2 = Chamfer.inRun (runOf t) j := by
    apply Fin.ext
    show win0_5.index t (2 : Fin 3) * 512 + 1 * j.val = t.val % 8 * 512 + j.val
    omega
  rw [h0, h2]

/-! ## Which indices a block holds, and that the blocks cover the arrays -/

/-- An index of the first result's array is in point `t`'s block iff each coordinate is in the block's range on its axis. -/
theorem mem_blk1 (t : Fin cfg0.N) (i : S8x1x4096.Idx) :
    i ∈ ((cfg0.win 4).blk t).view.set ↔ ∀ a : Fin 3, win0_4.index t a * S1x1x4096.size a ≤ (i a).val ∧ (i a).val < win0_4.index t a * S1x1x4096.size a + S1x1x4096.size a := by
  show i ∈ ((View.whole main_call0_v18_0).slice (win0_4.rect t)).set ↔ _
  rw [View.set_slice_whole, Rect.mem_set_unit]
  exact Iff.rfl

/-- The same for the second result's array. -/
theorem mem_blk2 (t : Fin cfg0.N) (i : S8x1x4096.Idx) :
    i ∈ ((cfg0.win 5).blk t).view.set ↔ ∀ a : Fin 3, win0_5.index t a * S1x1x512.size a ≤ (i a).val ∧ (i a).val < win0_5.index t a * S1x1x512.size a + S1x1x512.size a := by
  show i ∈ ((View.whole main_call0_v18_1).slice (win0_5.rect t)).set ↔ _
  rw [View.set_slice_whole, Rect.mem_set_unit]
  exact Iff.rfl

/-- Every index (b, 0, n) of the first result's array lies in the block written back after cloud `b`'s last run,
    at point 8·b + 7. -/
theorem cover1 (i : S8x1x4096.Idx) :
    ∃ t : Fin cfg0.N, (cfg0.win 4).flush t = true ∧ i ∈ ((cfg0.win 4).blk t).view.set := by
  have hi0 : (i 0).val < 8 := (i 0).isLt
  have hi1 : (i 1).val < 1 := (i 1).isLt
  have hi2 : (i 2).val < 4096 := (i 2).isLt
  have hN : cfg0.N = 64 := N_0
  obtain ⟨t, ht⟩ : ∃ t : Fin cfg0.N, t.val = 8 * (i 0).val + 7 :=
    ⟨⟨8 * (i 0).val + 7, lt_of_lt_of_eq (by omega : 8 * (i 0).val + 7 < 64) hN.symm⟩, rfl⟩
  refine ⟨t, (flush0_4 t).mpr (by omega), ?_⟩
  rw [mem_blk1]
  obtain ⟨e0, e1, e2, -, -, -⟩ := idx_facts t
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 4096 ≤ (i 2).val ∧ (i 2).val < win0_4.index t (2 : Fin 3) * 4096 + 4096; omega

/-- Every index (b, 0, n) of the second result's array lies in the block of cloud `b`'s run n / 512, at point
    8·b + n / 512. -/
theorem cover2 (i : S8x1x4096.Idx) :
    ∃ t : Fin cfg0.N, (cfg0.win 5).flush t = true ∧ i ∈ ((cfg0.win 5).blk t).view.set := by
  have hi0 : (i 0).val < 8 := (i 0).isLt
  have hi1 : (i 1).val < 1 := (i 1).isLt
  have hi2 : (i 2).val < 4096 := (i 2).isLt
  have hN : cfg0.N = 64 := N_0
  obtain ⟨t, ht⟩ : ∃ t : Fin cfg0.N, t.val = 8 * (i 0).val + (i 2).val / 512 :=
    ⟨⟨8 * (i 0).val + (i 2).val / 512, lt_of_lt_of_eq (by omega : 8 * (i 0).val + (i 2).val / 512 < 64) hN.symm⟩, rfl⟩
  refine ⟨t, flush0_5 t, ?_⟩
  rw [mem_blk2]
  obtain ⟨-, -, -, e0, e1, e2⟩ := idx_facts t
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1 ≤ (i 1).val ∧ (i 1).val < win0_5.index t (1 : Fin 3) * 1 + 1; omega
  | ⟨2, _⟩ => show win0_5.index t (2 : Fin 3) * 512 ≤ (i 2).val ∧ (i 2).val < win0_5.index t (2 : Fin 3) * 512 + 512; omega

/-! ## The arrays after the run -/

/-- The first result's array after the run: for each point of the first cloud, the kernel's reading of the least
    squared distance to the second cloud. -/
theorem final1 (c : Dev nD) : (dats (F := Ideal) m 0 c).arrAt 4 cfg0.N = G1 m c :=
  (dats m 0 c).arrAt_eq_of_cover 4 (G1 m c) (fun t hf => flushed1_eq m c t hf) cover1

/-- The second result's array after the run: for each point of the second cloud, the kernel's reading of the least
    squared distance to the first cloud. -/
theorem final2 (c : Dev nD) : (dats (F := Ideal) m 0 c).arrAt 5 cfg0.N = G2 m c :=
  (dats m 0 c).arrAt_eq_of_cover 5 (G2 m c) (fun t _ => flushed2_eq m c t) cover2

end Cert.KernelIdeal.KArray

end
-- ==== Proof.RefSide.lean ====
/-
  The reference program's value.

  The reference forms, for every cloud b and every pair of points (n of the first cloud, m of the second), the squared
  distance |p|² + |q|² − 2⟨p, q⟩ as an [8, 4096, 4096] array: the two squared norms are sums of three squares started from
  the zero word, spread along the missing axis; the inner product is a contraction over the three coordinates; the factor
  two is a literal. It then takes the minimum of that array along its last axis (for each point of the first cloud, over
  the second cloud) and along its middle axis (for each point of the second cloud, over the first), both started from +∞.
  What follows the two arrays of minima (the weighting, the four total sums, the two quotients, their mean) is kept as ONE
  function `tail` of the two arrays of minima and the two weight arrays, never opened here.

  This file reads the pairwise array at an index as `Chamfer.dist`, the two minima at an index as `Chamfer.nearest1` and
  `Chamfer.nearest2`, and states the reference's run with its result at `tail` of those.
-/
import proofs.«155851_g58342835749036_cont_9to1c4b_482_13_alg».proof.Defs
import proofs.«155851_g58342835749036_cont_9to1c4b_482_13_alg».proof.Proof.Gen.ReferenceIdeal.Run
import proofs.«155851_g58342835749036_cont_9to1c4b_482_13_alg».proof.Proof.Gen.ReferenceIdeal.Read
import proofs.«155851_g58342835749036_cont_9to1c4b_482_13_alg».proof.Proof.Gen.Pre_finite_inputs
import proofs.«155851_g58342835749036_cont_9to1c4b_482_13_alg».proof.Proof.Spec
import Idealize.ShloMosaic.Lib.ValueIdx
import Idealize.ShloMosaic.Lib.Pipeline.Value
import Idealize.ShloMosaic.PureOps.Ideal.Laws
import Idealize.ShloMosaic.Lib.StableHlo.Run
import Idealize.ShloMosaic.PureOps.Reduce

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-! ## What follows the two minima -/

/-- The reference's last lines (main_v15 … main_v24 of the printed program) as one function of the two arrays of minima
    and the two weight arrays: each array of minima times its weights, summed over all 8 · 4096 entries from the zero word,
    divided by the sum of the weights; the two quotients added and divided by the literal two. -/
def tail (d1 d2 w1 w2 : FVec Ideal S8x4096 .f32) : FVec Ideal S_ .f32 :=
  Host.divf (F := Ideal)
    (addf (F := Ideal)
      (Host.divf (F := Ideal)
        (Host.reduceAdd (F := Ideal) (mulf (F := Ideal) d1 w1) (constant (F := Ideal) S_ .f32 0x00000000#32) reducesTo_S8x4096_S_d0_1 h_S_)
        (Host.reduceAdd (F := Ideal) w1 (constant (F := Ideal) S_ .f32 0x00000000#32) reducesTo_S8x4096_S_d0_1 h_S_))
      (Host.divf (F := Ideal)
        (Host.reduceAdd (F := Ideal) (mulf (F := Ideal) d2 w2) (constant (F := Ideal) S_ .f32 0x00000000#32) reducesTo_S8x4096_S_d0_1 h_S_)
        (Host.reduceAdd (F := Ideal) w2 (constant (F := Ideal) S_ .f32 0x00000000#32) reducesTo_S8x4096_S_d0_1 h_S_)))
    (constant (F := Ideal) S_ .f32 0x40000000#32)

/-- The reference's result is `tail` of its two arrays of minima and its two weight arrays. -/
theorem val_main_v24_tail (x y : FVec Ideal S8x4096x3 .f32) (w1 w2 : FVec Ideal S8x4096 .f32) :
    Read.val_main_v24 (F := Ideal) x y w1 w2
      = tail (Read.val_main_v13 (F := Ideal) x y) (Read.val_main_v14 (F := Ideal) x y) w1 w2 := rfl

/-! ## The pairwise squared distance at an index -/

/-- The squared norms of the first cloud's points: at (b, n) the zero word plus the three squares of point n's coordinates. -/
theorem sqNorm1_apply (x : FVec Ideal S8x4096x3 .f32) (j : S8x4096.Idx) (b : Fin 8) (n : Fin 4096) (hj : j = ix2 b n) :
    Read.val_main_v1 (F := Ideal) x j = Chamfer.sq x b n := by
  subst hj
  rw [Read.val_main_v1_apply]
  refine congrArg (_ + ·) (Finset.sum_congr rfl fun k _ => ?_)
  rw [Read.val_main_v0_apply]
  have e : Read.idx_main_v1 (ix2 b n) k = ix3 b n k :=
    funext fun a => Fin.ext (by match a with | ⟨0, _⟩ => rfl | ⟨1, _⟩ => rfl | ⟨2, _⟩ => rfl)
  rw [e]; rfl

/-- The same for the second cloud. -/
theorem sqNorm2_apply (y : FVec Ideal S8x4096x3 .f32) (j : S8x4096.Idx) (b : Fin 8) (m : Fin 4096) (hj : j = ix2 b m) :
    Read.val_main_v3 (F := Ideal) y j = Chamfer.sq y b m := by
  subst hj
  rw [Read.val_main_v3_apply]
  refine congrArg (_ + ·) (Finset.sum_congr rfl fun k _ => ?_)
  rw [Read.val_main_v2_apply]
  have e : Read.idx_main_v3 (ix2 b m) k = ix3 b m k :=
    funext fun a => Fin.ext (by match a with | ⟨0, _⟩ => rfl | ⟨1, _⟩ => rfl | ⟨2, _⟩ => rfl)
  rw [e]; rfl

/-- The contraction over the three coordinates: at (b, n, m) the inner product of point n of the first cloud with point m
    of the second. -/
theorem cross_apply (x y : FVec Ideal S8x4096x3 .f32) (b : Fin 8) (n m : Fin 4096) :
    Read.val_main_v4 (F := Ideal) x y (ix3 b n m) = Chamfer.cross x y b n m := by
  rw [Read.val_main_v4_apply]
  refine Finset.sum_congr rfl fun k _ => ?_
  have el : Read.lidx_main_v4 (ix3 b n m) k = ix3 b n k :=
    funext fun a => Fin.ext (by match a with | ⟨0, _⟩ => rfl | ⟨1, _⟩ => rfl | ⟨2, _⟩ => rfl)
  have er : Read.ridx_main_v4 (ix3 b n m) k = ix3 b m k :=
    funext fun a => Fin.ext (by match a with | ⟨0, _⟩ => rfl | ⟨1, _⟩ => rfl | ⟨2, _⟩ => rfl)
  rw [el, er]

/-- The pairwise array at (b, n, m): the first point's norm (spread along m) plus the second point's norm (spread along
    n), minus two times the inner product — in exactly that grouping. -/
theorem dist_apply (x y : FVec Ideal S8x4096x3 .f32) (b : Fin 8) (n m : Fin 4096) :
    Read.val_main_v12 (F := Ideal) x y (ix3 b n m) = Chamfer.dist x y b n m := by
  rw [Read.val_main_v12_apply, Read.val_main_v9_apply, Read.val_main_v11_apply, Read.val_main_v7_apply, Read.val_main_v5_apply,
    Read.val_main_v8_apply, Read.val_main_v6_apply, Read.val_main_v10_apply, Read.val_main_cst_1_apply, cross_apply,
    sqNorm1_apply x _ b n (funext fun a => Fin.ext (by match a with | ⟨0, _⟩ => rfl | ⟨1, _⟩ => rfl)),
    sqNorm2_apply y _ b m (funext fun a => Fin.ext (by match a with | ⟨0, _⟩ => rfl | ⟨1, _⟩ => rfl))]
  rfl

/-! ## The two minima at an index -/

/-- Row (b, n) of the pairwise array with the second point's number `k` put back on the last axis is entry (b, n, k). -/
theorem lift_last (h : S8x4096x4096.Reduces [2] S8x4096) (b : Fin 8) (n : Fin 4096) (k : Fin (S8x4096x4096.size 2)) :
    h.lift (ix2 b n) k = ix3 b n (⟨k.val, k.isLt⟩ : Fin 4096) := by
  funext c; apply Fin.ext
  match c with | ⟨0, _⟩ => rfl | ⟨1, _⟩ => rfl | ⟨2, _⟩ => rfl

/-- Column (b, m) with the first point's number `k` put back on the middle axis is entry (b, k, m). -/
theorem lift_mid (h : S8x4096x4096.Reduces [1] S8x4096) (b : Fin 8) (m : Fin 4096) (k : Fin (S8x4096x4096.size 1)) :
    h.lift (ix2 b m) k = ix3 b (⟨k.val, k.isLt⟩ : Fin 4096) m := by
  funext c; apply Fin.ext
  match c with | ⟨0, _⟩ => rfl | ⟨1, _⟩ => rfl | ⟨2, _⟩ => rfl

/-- The minimum along the last axis, at (b, n): minimum being commutative and associative, it is the fold of min from +∞
    over the 4096 points of the second cloud of the squared distance from point n. -/
theorem nearest1_apply (x y : FVec Ideal S8x4096x3 .f32) (b : Fin 8) (n : Fin 4096) :
    Read.val_main_v13 (F := Ideal) x y (ix2 b n) = Chamfer.nearest1 x y b n := by
  have h : S8x4096x4096.Reduces [2] S8x4096 := by decide
  unfold Read.val_main_v13
  rw [Host.reduce_eq_fold_single FloatOps.minimumf _ _ reducesTo_S8x4096x4096_S8x4096_d2 h h_S_]
  have hf : (Read.val_main_v12 (F := Ideal) x y ∘ h.lift (ix2 b n)) = fun m : Fin 4096 => Chamfer.dist x y b n m :=
    funext fun k => (congrArg (Read.val_main_v12 (F := Ideal) x y) (lift_last h b n k)).trans (dist_apply x y b n _)
  exact congrArg (fun f => Finset.fold min (Ideal.ofBits .f32 0x7F800000#32) f (Finset.univ : Finset (Fin 4096))) hf

/-- The minimum along the middle axis, at (b, m): the fold of min from +∞ over the 4096 points of the first cloud of the
    squared distance to point m. -/
theorem nearest2_apply (x y : FVec Ideal S8x4096x3 .f32) (b : Fin 8) (m : Fin 4096) :
    Read.val_main_v14 (F := Ideal) x y (ix2 b m) = Chamfer.nearest2 x y b m := by
  have h : S8x4096x4096.Reduces [1] S8x4096 := by decide
  unfold Read.val_main_v14
  rw [Host.reduce_eq_fold_single FloatOps.minimumf _ _ reducesTo_S8x4096x4096_S8x4096_d1 h h_S_]
  have hf : (Read.val_main_v12 (F := Ideal) x y ∘ h.lift (ix2 b m)) = fun n : Fin 4096 => Chamfer.dist x y b n m :=
    funext fun k => (congrArg (Read.val_main_v12 (F := Ideal) x y) (lift_mid h b m k)).trans (dist_apply x y b _ m)
  exact congrArg (fun f => Finset.fold min (Ideal.ofBits .f32 0x7F800000#32) f (Finset.univ : Finset (Fin 4096))) hf

/-- The whole array of minima over the second cloud. -/
theorem nearest1_eq (x y : FVec Ideal S8x4096x3 .f32) :
    Read.val_main_v13 (F := Ideal) x y = fun i => Chamfer.nearest1 x y (i 0) (i 1) :=
  funext fun i => (congrArg (Read.val_main_v13 (F := Ideal) x y) (eq_ix2 i)).trans (nearest1_apply x y (i 0) (i 1))

/-- The whole array of minima over the first cloud. -/
theorem nearest2_eq (x y : FVec Ideal S8x4096x3 .f32) :
    Read.val_main_v14 (F := Ideal) x y = fun i => Chamfer.nearest2 x y (i 0) (i 1) :=
  funext fun i => (congrArg (Read.val_main_v14 (F := Ideal) x y) (eq_ix2 i)).trans (nearest2_apply x y (i 0) (i 1))

/-! ## The run -/

/-- Every weakly fair execution of the reference from memory `m` ends with its result at `tail` of the two arrays of
    minima of the squared distances between the two argument clouds and of the two weight arrays, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v24)
        = tail (fun i => Chamfer.nearest1 (m ((c.tc : Thread nD τ).loc main_arg0)) (m ((c.tc : Thread nD τ).loc main_arg1)) (i 0) (i 1))
            (fun i => Chamfer.nearest2 (m ((c.tc : Thread nD τ).loc main_arg0)) (m ((c.tc : Thread nD τ).loc main_arg1)) (i 0) (i 1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (by
      rw [Read.val_main_v24_eq, val_main_v24_tail, nearest1_eq, nearest2_eq]), (h c).2⟩)
    (Cert.ReferenceIdeal.Value.run (F := Ideal) m ρ)

/-- The reference runs to the end and leaves its four arguments unchanged: its run with the result dropped. -/
theorem frame : Cert.frame_ReferenceIdeal :=
  fun m ρ _ => (θ_run defs _ _).mono (fun _ h c => (h c).2) (Cert.ReferenceIdeal.Value.run (F := Ideal) m ρ)

end Cert.ReferenceIdeal.RefValue

end
-- ==== Proof.Laws.lean ====
/-
  The two readings of the chamfer distance agree when every coordinate is real.

  With real coordinates every quantity below is the coercion of a real number: the inner product with the factor −2
  folded into one operand is −2⟨p, q⟩, and adding both squared norms to it gives |p|² + |q|² − 2⟨p, q⟩. A real constant
  commutes with a minimum started at ⊤ (min (a + c) (b + c) = min a b + c, and ⊤ + c = ⊤), so a norm may be added before
  or after the minimum. The minimum taken in 8 runs of 512 points, combined in order, has the same lower bounds as the
  minimum over all 4096 points, because every point m is point m mod 512 of run m div 512.
-/
import proofs.«155851_g58342835749036_cont_9to1c4b_482_13_alg».proof.Proof.Spec
import Mathlib.Data.EReal.Basic
import Mathlib.Data.EReal.Operations
import Mathlib.Data.Finset.Fold
import Mathlib.Algebra.BigOperators.Fin
import Mathlib.Algebra.Order.Monoid.Unbundled.MinMax
import Mathlib.Tactic.Ring
import Mathlib.Tactic.NormNum

noncomputable section

open scoped BigOperators

namespace Chamfer

open Idealize.ShloMosaic Idealize.ShloMosaic.ValueIdx

theorem negTwo_eq : negTwo = ((-2 : ℝ) : EReal) := by
  simp [negTwo, Ideal.ofBits, Ideal.ieee, -EReal.coe_mul]; norm_num

theorem two_eq : two = ((2 : ℝ) : EReal) := by
  simp [two, Ideal.ofBits, Ideal.ieee, -EReal.coe_mul]; norm_num

theorem zero_eq : zero = 0 := by
  simp [zero, Ideal.ofBits, Ideal.ieee]

theorem inf_eq : inf = ⊤ := by
  simp [inf, Ideal.ofBits, Ideal.ieee]

/-! ## Real coordinates: every quantity is the coercion of a real number -/

/-- The squared norm of a point with real coordinates is the real sum of squares. -/
theorem sq_coe (f : (⟨3, ![8, 4096, 3]⟩ : Shape).Idx → ℝ) (b : Fin 8) (n : Fin 4096) :
    sq (fun i => ((f i : ℝ) : EReal)) b n
      = ((f (ix3 b n 0) * f (ix3 b n 0) + f (ix3 b n 1) * f (ix3 b n 1) + f (ix3 b n 2) * f (ix3 b n 2) : ℝ) : EReal) := by
  simp only [sq, zero_eq, zero_add, Fin.sum_univ_three]
  norm_cast

/-- The inner product of two points with real coordinates is the real inner product. -/
theorem cross_coe (f g : (⟨3, ![8, 4096, 3]⟩ : Shape).Idx → ℝ) (b : Fin 8) (p q : Fin 4096) :
    cross (fun i => ((f i : ℝ) : EReal)) (fun i => ((g i : ℝ) : EReal)) b p q
      = ((f (ix3 b p 0) * g (ix3 b q 0) + f (ix3 b p 1) * g (ix3 b q 1) + f (ix3 b p 2) * g (ix3 b q 2) : ℝ) : EReal) := by
  simp only [cross, Fin.sum_univ_three]
  norm_cast

/-- With the factor −2 folded into the first point, the inner product is −2 times the real inner product. -/
theorem crossNeg_coe (f g : (⟨3, ![8, 4096, 3]⟩ : Shape).Idx → ℝ) (b : Fin 8) (p q : Fin 4096) :
    crossNeg (fun i => ((f i : ℝ) : EReal)) (fun i => ((g i : ℝ) : EReal)) b p q
      = ((-2 * (f (ix3 b p 0) * g (ix3 b q 0) + f (ix3 b p 1) * g (ix3 b q 1) + f (ix3 b p 2) * g (ix3 b q 2)) : ℝ) : EReal) := by
  simp only [crossNeg, negTwo_eq, Fin.sum_univ_three]
  norm_cast
  ring

/-- For real coordinates the kernel's three summands add up to the squared distance the reference forms. -/
theorem partial_add_eq_dist (f g : (⟨3, ![8, 4096, 3]⟩ : Shape).Idx → ℝ) (b : Fin 8) (n m : Fin 4096) :
    crossNeg (fun i => ((f i : ℝ) : EReal)) (fun i => ((g i : ℝ) : EReal)) b n m
        + sq (fun i => ((f i : ℝ) : EReal)) b n + sq (fun i => ((g i : ℝ) : EReal)) b m
      = dist (fun i => ((f i : ℝ) : EReal)) (fun i => ((g i : ℝ) : EReal)) b n m := by
  simp only [dist, crossNeg_coe, sq_coe, cross_coe, two_eq, ← EReal.coe_mul, ← EReal.coe_add, ← EReal.coe_sub]
  congr 1
  ring

/-- The same with the factor −2 folded into the second cloud's point (the inner product is symmetric). -/
theorem partial_add_eq_dist' (f g : (⟨3, ![8, 4096, 3]⟩ : Shape).Idx → ℝ) (b : Fin 8) (n m : Fin 4096) :
    crossNeg (fun i => ((g i : ℝ) : EReal)) (fun i => ((f i : ℝ) : EReal)) b m n
        + sq (fun i => ((g i : ℝ) : EReal)) b m + sq (fun i => ((f i : ℝ) : EReal)) b n
      = dist (fun i => ((f i : ℝ) : EReal)) (fun i => ((g i : ℝ) : EReal)) b n m := by
  simp only [dist, crossNeg_coe, sq_coe, cross_coe, two_eq, ← EReal.coe_mul, ← EReal.coe_add, ← EReal.coe_sub]
  congr 1
  ring

/-! ## A real constant moves across a minimum started at ⊤ -/

theorem fold_min_add_const {ι : Type*} (s : Finset ι) (g : ι → EReal) (c : ℝ) :
    s.fold min ⊤ (fun j => g j + (c : EReal)) = s.fold min ⊤ g + (c : EReal) := by
  classical
  induction s using Finset.induction_on with
  | empty => simp only [Finset.fold_empty, EReal.top_add_coe]
  | insert a s ha ih => rw [Finset.fold_insert ha, Finset.fold_insert ha, ih, min_add_add_right]

/-! ## The running minimum over the 8 runs is the minimum over all 4096 points -/

/-- Every point lies in exactly one run. -/
theorem exists_inRun (m : Fin 4096) : ∃ (r : Fin 8) (j : Fin 512), inRun r j = m :=
  ⟨⟨m.val / 512, by omega⟩, ⟨m.val % 512, by omega⟩, by apply Fin.ext; simp only [inRun]; omega⟩

/-- A lower bound of the running minimum after runs 0 … k bounds every point of those runs, and conversely. -/
theorem le_runAcc_iff (x y : Cloud) (b : Fin 8) (n : Fin 4096) (c : EReal) :
    ∀ (k : ℕ) (h : k < 8), c ≤ runAcc x y b n k h ↔
      ∀ r : Fin 8, r.val ≤ k → ∀ j : Fin 512, c ≤ crossNeg y x b (inRun r j) n + sq y b (inRun r j) := by
  intro k
  induction k with
  | zero =>
    intro h
    simp only [runAcc, runMin, Finset.le_fold_min, inf_eq, le_top, true_and, Finset.mem_univ, forall_true_left]
    constructor
    · intro H r hr j
      have : r = ⟨0, h⟩ := Fin.ext (by simpa using hr)
      subst this; exact H j
    · intro H j; exact H ⟨0, h⟩ (le_refl _) j
  | succ k ih =>
    intro h
    simp only [runAcc, le_min_iff, ih, runMin, Finset.le_fold_min, inf_eq, le_top, true_and, Finset.mem_univ,
      forall_true_left]
    constructor
    · rintro ⟨H1, H2⟩ r hr j
      rcases Nat.lt_or_ge r.val (k + 1) with hlt | hge
      · exact H1 r (Nat.lt_succ_iff.mp hlt) j
      · have : r = ⟨k + 1, h⟩ := Fin.ext (le_antisymm hr hge)
        subst this; exact H2 j
    · intro H
      exact ⟨fun r hr j => H r (Nat.le_succ_of_le hr) j, fun j => H ⟨k + 1, h⟩ (le_refl _) j⟩

/-- The running minimum after the last run is the minimum over the whole cloud. -/
theorem runAcc_last (x y : Cloud) (b : Fin 8) (n : Fin 4096) :
    runAcc x y b n 7 (by omega)
      = (Finset.univ : Finset (Fin 4096)).fold min ⊤ (fun m => crossNeg y x b m n + sq y b m) := by
  apply eq_of_forall_le_iff
  intro c
  rw [le_runAcc_iff, Finset.le_fold_min]
  constructor
  · intro H
    refine ⟨le_top, fun m _ => ?_⟩
    obtain ⟨r, j, rfl⟩ := exists_inRun m
    exact H r (by omega) j
  · rintro ⟨_, H⟩ r _ j
    exact H (inRun r j) (Finset.mem_univ _)

/-! ## The two readings agree -/

theorem kNearest1_eq (x y : Cloud) (hx : IsReal x) (hy : IsReal y) (b : Fin 8) (n : Fin 4096) :
    kNearest1 x y b n = nearest1 x y b n := by
  choose f hf using hx
  choose g hg using hy
  obtain rfl : x = fun i => ((f i : ℝ) : EReal) := funext hf
  obtain rfl : y = fun i => ((g i : ℝ) : EReal) := funext hg
  rw [kNearest1, nearest1, runAcc_last, inf_eq, sq_coe f b n, ← fold_min_add_const, ← sq_coe f b n]
  congr 1
  funext m
  exact partial_add_eq_dist' f g b n m

theorem kNearest2_eq (x y : Cloud) (hx : IsReal x) (hy : IsReal y) (b : Fin 8) (m : Fin 4096) :
    kNearest2 x y b m = nearest2 x y b m := by
  choose f hf using hx
  choose g hg using hy
  obtain rfl : x = fun i => ((f i : ℝ) : EReal) := funext hf
  obtain rfl : y = fun i => ((g i : ℝ) : EReal) := funext hg
  rw [kNearest2, nearest2, inf_eq, sq_coe g b m, ← fold_min_add_const, ← sq_coe g b m]
  congr 1
  funext n
  exact partial_add_eq_dist f g b n m

end Chamfer

end
-- ==== Proof.Finite.lean ====
/-
  From the precondition to "every coordinate is a real number".

  The precondition states, for each of the four inputs, that |x| < +∞ holds at every entry (the comparisons combined by
  "and" over all axes), and that the four results combined by "and" give 1. Over the extended reals |a| is max a (−a),
  and +∞ is the value of the word 0x7F800000. An entry with max a (−a) < +∞ is neither −∞ nor +∞, hence a real number.
  Only the two point arrays are read here.
-/
import proofs.«155851_g58342835749036_cont_9to1c4b_482_13_alg».proof.Pre_finite_inputs
import proofs.«155851_g58342835749036_cont_9to1c4b_482_13_alg».proof.Proof.Gen.Pre_finite_inputs
import proofs.«155851_g58342835749036_cont_9to1c4b_482_13_alg».proof.Proof.Spec
import Idealize.ShloMosaic.Lib.ReduceAll
import Idealize.ShloMosaic.Lib.ValueIdx
import Idealize.ShloMosaic.PureOps.Ideal.Laws
import Mathlib.Data.EReal.Basic

noncomputable section

namespace Cert.Pre_finite_inputs.Fin

open Idealize.ShloMosaic Idealize.ShloMosaic.ValueIdx

variable [Cert.Pre_finite_inputs.Facts]

/-- The result shape of a reduction over all axes has a single index. -/
instance : Subsingleton S_.Idx := ⟨fun a b => funext fun d => d.elim0⟩

/-- The word 0x7F800000 denotes +∞. -/
theorem ofBits_inf : Ideal.ofBits .f32 0x7F800000#32 = (⊤ : EReal) := by
  simp [Ideal.ofBits, Ideal.ieee]

/-- An extended real whose absolute value max a (−a) lies strictly below +∞ is a real number: for a = −∞ and for a = +∞
    the maximum is +∞, which is not below itself. -/
theorem real_of_abs_lt (a : EReal)
    (h : FloatOps.cmpf (F := Ideal) (φ := .f32) .olt (FloatOps.absf (F := Ideal) (φ := .f32) a)
      (Ideal.ofBits .f32 0x7F800000#32) = 1#1) : ∃ r : ℝ, a = (r : EReal) := by
  rw [Ideal.cmpf_def, Ideal.absf_def, ofBits_inf] at h
  induction a using EReal.rec with
  | bot => simp [Ideal.cmp] at h
  | coe r => exact ⟨r, rfl⟩
  | top => simp [Ideal.cmp] at h

/-- The predicate is the conjunction of four statements "every entry of the array has absolute value below +∞"; the first
    two, read at each index, say that every coordinate of the two point arrays is a real number. -/
theorem isReal_of_pre (x1 x2 : FVec Ideal S8x4096x3 .f32) (w1 w2 : FVec Ideal S8x4096 .f32)
    (h : Cert.Pre_finite_inputs.fn (F := Ideal) x1 x2 w1 w2 = fun _ => 1#1) : Chamfer.IsReal x1 ∧ Chamfer.IsReal x2 := by
  have h0 := congrFun h ValueIdx.ix0
  dsimp only [Cert.Pre_finite_inputs.fn, Cert.Pre_finite_inputs.fn_part1] at h0
  obtain ⟨h123, _⟩ := IntOp.andi_eq_one.1 h0
  obtain ⟨h12, _⟩ := IntOp.andi_eq_one.1 h123
  obtain ⟨h1, h2⟩ := IntOp.andi_eq_one.1 h12
  exact ⟨fun i => real_of_abs_lt _ (Host.reduce_andi_all _ _ _ _ _ h1 i),
    fun i => real_of_abs_lt _ (Host.reduce_andi_all _ _ _ _ _ h2 i)⟩

end Cert.Pre_finite_inputs.Fin

end
-- ==== Proof.lean ====
/-
  Chamfer distance: a fused kernel against the plain reference, over the extended reals.

  The reference forms every squared distance |p|² + |q|² − 2⟨p, q⟩ between the two clouds of a batch entry and takes its
  minima along both axes. The kernel never forms it: it multiplies one cloud by −2 before the inner product, adds the
  norm of the point minimised over before the minimum and the other point's norm after it, and for the first cloud takes
  the minimum over the second cloud in eight runs whose partial minima it combines in order. On finite inputs the two
  readings agree: the factor −2 distributes over the three-term inner product, an additive real constant moves across a
  minimum, and the minimum over eight runs of 512 is the minimum over all 4096. Both programs then weight, sum and average
  the two arrays of minima by the same lines.

  The three frames: the kernel's (at both instances) is its pipeline's run, point by point (Body); the reference's is its
  run with the result dropped. The idealization rewrote nothing, so the preservation claim is trivial.
-/
import proofs.«155851_g58342835749036_cont_9to1c4b_482_13_alg».proof.Defs
import proofs.«155851_g58342835749036_cont_9to1c4b_482_13_alg».proof.Proof.Gen.Kernel
import proofs.«155851_g58342835749036_cont_9to1c4b_482_13_alg».proof.Proof.Gen.KernelIdeal
import proofs.«155851_g58342835749036_cont_9to1c4b_482_13_alg».proof.Proof.Gen.ReferenceIdeal
import proofs.«155851_g58342835749036_cont_9to1c4b_482_13_alg».proof.Proof.Gen.Pre_finite_inputs
import proofs.«155851_g58342835749036_cont_9to1c4b_482_13_alg».proof.Proof.Body
import proofs.«155851_g58342835749036_cont_9to1c4b_482_13_alg».proof.Proof.BodyK
import proofs.«155851_g58342835749036_cont_9to1c4b_482_13_alg».proof.Proof.KHost
import proofs.«155851_g58342835749036_cont_9to1c4b_482_13_alg».proof.Proof.KArray
import proofs.«155851_g58342835749036_cont_9to1c4b_482_13_alg».proof.Proof.RefSide
import proofs.«155851_g58342835749036_cont_9to1c4b_482_13_alg».proof.Proof.Laws
import proofs.«155851_g58342835749036_cont_9to1c4b_482_13_alg».proof.Proof.Finite
import Idealize.ShloMosaic.Adequacy
import Idealize.ShloMosaic.Init

noncomputable section

namespace Cert.Proof

open Idealize.ShloMosaic Idealize.ShloMosaic.TcCoe Idealize.SL.Sem

section KernelValue

open Cert.KernelIdeal Cert.KernelIdeal.Gen Cert.KernelIdeal.Body Cert.KernelIdeal.KPoint

/-- The kernel's run, read: its result is the common last lines applied to the two arrays of nearest distances as the
    kernel computes them, and its arguments are unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0)
        = Cert.KernelIdeal.KHost.tail (Cert.KernelIdeal.KArray.G1 m c) (Cert.KernelIdeal.KArray.G2 m c)
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v0 (Pipeline.mem_restRefs_of main_v0 (by decide) (by decide))).trans
        ((Cert.KernelIdeal.KHost.result_eq m (dats m) c).trans (by rw [Cert.KernelIdeal.KArray.final1, Cert.KernelIdeal.KArray.final2])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main (F := Ideal) m ρ)

end KernelValue

section Tails

open Cert.KernelIdeal Cert.KernelIdeal.Gen in
/-- A kernel result array read as an [8,4096] array is, on finite clouds, the reference's array of minima: the kernel's
    reading of a nearest distance is the reference's. -/
theorem reshape_nearest1 (x y : Chamfer.Cloud) (hx : Chamfer.IsReal x) (hy : Chamfer.IsReal y) :
    shapeCast S8x4096 (fun i : S8x1x4096.Idx => Chamfer.kNearest1 x y (i 0) (i 2)) shapeCasts_S8x1x4096_S8x4096
      = fun i => Chamfer.nearest1 x y (i 0) (i 1) := funext fun i => by
  obtain ⟨b, n, rfl⟩ : ∃ (b : Fin 8) (n : Fin 4096), i = ValueIdx.ix2 b n := ⟨i 0, i 1, ValueIdx.eq_ix2 i⟩
  rw [Cert.KernelIdeal.KHost.reshape_apply]
  exact Chamfer.kNearest1_eq x y hx hy b n

open Cert.KernelIdeal Cert.KernelIdeal.Gen in
theorem reshape_nearest2 (x y : Chamfer.Cloud) (hx : Chamfer.IsReal x) (hy : Chamfer.IsReal y) :
    shapeCast S8x4096 (fun i : S8x1x4096.Idx => Chamfer.kNearest2 x y (i 0) (i 2)) shapeCasts_S8x1x4096_S8x4096
      = fun i => Chamfer.nearest2 x y (i 0) (i 1) := funext fun i => by
  obtain ⟨b, n, rfl⟩ : ∃ (b : Fin 8) (n : Fin 4096), i = ValueIdx.ix2 b n := ⟨i 0, i 1, ValueIdx.eq_ix2 i⟩
  rw [Cert.KernelIdeal.KHost.reshape_apply]
  exact Chamfer.kNearest2_eq x y hx hy b n

/-- On finite clouds the reference's last lines over its two arrays of minima are the kernel's over its two result arrays:
    the same weighting, sums, quotients and mean, of equal arrays. -/
theorem tails_agree (x y : Chamfer.Cloud) (hx : Chamfer.IsReal x) (hy : Chamfer.IsReal y)
    (w1 w2 : FVec Ideal Cert.KernelIdeal.S8x4096 .f32) :
    Cert.ReferenceIdeal.RefValue.tail (fun i => Chamfer.nearest1 x y (i 0) (i 1)) (fun i => Chamfer.nearest2 x y (i 0) (i 1)) w1 w2
      = Cert.KernelIdeal.KHost.tail (fun i => Chamfer.kNearest1 x y (i 0) (i 2)) (fun i => Chamfer.kNearest2 x y (i 0) (i 2)) w1 w2 := by
  unfold Cert.KernelIdeal.KHost.tail
  rw [reshape_nearest1 x y hx hy, reshape_nearest2 x y hx hy]
  rfl

end Tails

theorem frame_k : Cert.frame_Kernel := fun m ρ _ => Cert.Kernel.Body.frame (F := Bits) m ρ
theorem frame_ki : Cert.frame_KernelIdeal := fun m ρ _ => Cert.KernelIdeal.Body.frame (F := Ideal) m ρ

theorem algebraic : Cert.algebraic_KernelIdeal_ReferenceIdeal := by
  intro m ρ m' ρ' hpre hagree
  refine ⟨_, kernel_run m ρ, ?_⟩
  refine (θ_run Cert.ReferenceIdeal.defs _ _).mono (fun _ h c => ⟨(h c).1.trans ?_, (h c).2⟩)
    (Cert.ReferenceIdeal.RefValue.run m' ρ')
  obtain ⟨hx, hy⟩ := Cert.Pre_finite_inputs.Fin.isReal_of_pre _ _ _ _ (hpre c)
  rw [(hagree c).1, (hagree c).2.1, (hagree c).2.2.1, (hagree c).2.2.2]
  exact tails_agree _ _ hx hy _ _

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefValue.frame, trivial, algebraic⟩

end Cert.Proof

end
